-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096x1376 : Shape := ⟨2, ![4096, 1376]⟩
abbrev S32x1376 : Shape := ⟨2, ![32, 1376]⟩
abbrev S32x11008 : Shape := ⟨2, ![32, 11008]⟩
abbrev S16x4096 : Shape := ⟨2, ![16, 4096]⟩
abbrev S11008x16 : Shape := ⟨2, ![11008, 16]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_

variable [Facts]

def fn_part1 {F : FTy → Type} [FloatOps F] (main_v13 : IVec S_ 1) (main_v16 : IVec S11008x16 1) : IVec S_ 1 :=
  let main_c_5 : IVec S_ 1 := constantI S_ 1 1#1
  let main_v17 : IVec S_ 1 := (fun x v => Host.reduce IntOp.andi x v reducesTo_S11008x16_S_d0_1 h_S_) main_v16 main_c_5
  let main_v18 : IVec S_ 1 := andi main_v13 main_v17
  main_v18

def fn {F : FTy → Type} [FloatOps F] (main_arg0 : FVec F S256x4096 .f32) (main_arg1 : IVec S4096x1376 32) (main_arg2 : IVec S32x1376 32) (main_arg3 : FVec F S32x11008 .f32) (main_arg4 : FVec F S16x4096 .f32) (main_arg5 : FVec F S11008x16 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S16x4096 .f32 := Host.absf main_arg4
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S11008x16 .f32 := Host.absf main_arg5
  let main_cst_4 : FVec F S_ .f32 := constant S_ .f32 0x7F800000#32
  let main_v15 : FVec F S11008x16 .f32 := broadcastInDim S11008x16 ![] bcast_S_S11008x16 main_cst_4
  let main_v16 : IVec S11008x16 1 := cmpf .olt main_v14 main_v15
  fn_part1 (F := F) main_v13 main_v16
-- ==== Kernel.lean ====
abbrev S256x4096 : Shape := ⟨2, ![256, 4096]⟩
abbrev S4096x1376 : Shape := ⟨2, ![4096, 1376]⟩
abbrev S32x1376 : Shape := ⟨2, ![32, 1376]⟩
abbrev S32x11008 : Shape := ⟨2, ![32, 11008]⟩
abbrev S16x4096 : Shape := ⟨2, ![16, 4096]⟩
abbrev S11008x16 : Shape := ⟨2, ![11008, 16]⟩
abbrev S_ : Shape := ⟨0, ![]⟩
abbrev S4096x1408 : Shape := ⟨2, ![4096, 1408]⟩
abbrev S8 : Shape := ⟨1, ![8]⟩
abbrev S32x1376x1 : Shape := ⟨3, ![32, 1376, 1]⟩
abbrev S1x1x8 : Shape := ⟨3, ![1, 1, 8]⟩
abbrev S32x1376x8 : Shape := ⟨3, ![32, 1376, 8]⟩
abbrev S32x11264 : Shape := ⟨2, ![32, 11264]⟩
abbrev S11264x16 : Shape := ⟨2, ![11264, 16]⟩
abbrev S32x1408x8 : Shape := ⟨3, ![32, 1408, 8]⟩
abbrev S32x8x1408 : Shape := ⟨3, ![32, 8, 1408]⟩
abbrev S1408x8x16 : Shape := ⟨3, ![1408, 8, 16]⟩
abbrev S8x1408x16 : Shape := ⟨3, ![8, 1408, 16]⟩
abbrev S4096x16 : Shape := ⟨2, ![4096, 16]⟩
abbrev S256x16 : Shape := ⟨2, ![256, 16]⟩
abbrev S256x11264 : Shape := ⟨2, ![256, 11264]⟩
abbrev S2048x128 : Shape := ⟨2, ![2048, 128]⟩
abbrev S16x8x128 : Shape := ⟨3, ![16, 8, 128]⟩
abbrev S8x128x16 : Shape := ⟨3, ![8, 128, 16]⟩
abbrev S256x1024 : Shape := ⟨2, ![256, 1024]⟩
abbrev S2048x1024 : Shape := ⟨2, ![2048, 1024]⟩
abbrev S256x2048 : Shape := ⟨2, ![256, 2048]⟩
abbrev S16x128x128 : Shape := ⟨3, ![16, 128, 128]⟩
abbrev S16x1x128 : Shape := ⟨3, ![16, 1, 128]⟩
abbrev S16x128 : Shape := ⟨2, ![16, 128]⟩
abbrev S1024x16 : Shape := ⟨2, ![1024, 16]⟩
abbrev S16x1024 : Shape := ⟨2, ![16, 1024]⟩
abbrev S256x8x128 : Shape := ⟨3, ![256, 8, 128]⟩
abbrev S256x128x8 : Shape := ⟨3, ![256, 128, 8]⟩
abbrev S256x11008 : Shape := ⟨2, ![256, 11008]⟩

abbrev nBuf : Space → Nat
  | .hbm => 47
  | .vmem => 14
  | .smem => 0
  | _ => 0

abbrev bufTy : (tb : Table) → Fin (tcTables nBuf tb) → BufTy
  | .hbm, ⟨0, _⟩ => ⟨S256x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S16x4096, .f32⟩
  | .hbm, ⟨5, _⟩ => ⟨S11008x16, .f32⟩
  | .hbm, ⟨6, _⟩ => ⟨S_, .i32⟩
  | .hbm, ⟨7, _⟩ => ⟨S_, .i32⟩
  | .hbm, ⟨8, _⟩ => ⟨S4096x1408, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S32x1376x1, .i32⟩
  | .hbm, ⟨14, _⟩ => ⟨S1x1x8, .i32⟩
  | .hbm, ⟨15, _⟩ => ⟨S32x1376x8, .i32⟩
  | .hbm, ⟨16, _⟩ => ⟨S32x1376x8, .i32⟩
  | .hbm, ⟨17, _⟩ => ⟨S32x1376x8, .i32⟩
  | .hbm, ⟨18, _⟩ => ⟨S_, .i32⟩
  | .hbm, ⟨19, _⟩ => ⟨S32x1376x8, .i32⟩
  | .hbm, ⟨20, _⟩ => ⟨S32x1376x8, .i32⟩
  | .hbm, ⟨21, _⟩ => ⟨S32x11008, .i32⟩
  | .hbm, ⟨22, _⟩ => ⟨S32x11008, .f32⟩
  | .hbm, ⟨23, _⟩ => ⟨S_, .i32⟩
  | .hbm, ⟨24, _⟩ => ⟨S_, .f32⟩
  | .hbm, ⟨25, _⟩ => ⟨S32x11264, .f32⟩
  | .hbm, ⟨26, _⟩ => ⟨S_, .i32⟩
  | .hbm, ⟨27, _⟩ => ⟨S_, .f32⟩
  | .hbm, ⟨28, _⟩ => ⟨S32x11264, .f32⟩
  | .hbm, ⟨29, _⟩ => ⟨S_, .i32⟩
  | .hbm, ⟨30, _⟩ => ⟨S_, .f32⟩
  | .hbm, ⟨31, _⟩ => ⟨S11264x16, .f32⟩
  | .hbm, ⟨32, _⟩ => ⟨S32x1408x8, .f32⟩
  | .hbm, ⟨33, _⟩ => ⟨S32x8x1408, .f32⟩
  | .hbm, ⟨34, _⟩ => ⟨S32x1408x8, .f32⟩
  | .hbm, ⟨35, _⟩ => ⟨S32x8x1408, .f32⟩
  | .hbm, ⟨36, _⟩ => ⟨S1408x8x16, .f32⟩
  | .hbm, ⟨37, _⟩ => ⟨S8x1408x16, .f32⟩
  | .hbm, ⟨38, _⟩ => ⟨S256x4096, .bf16⟩
  | .hbm, ⟨39, _⟩ => ⟨S16x4096, .bf16⟩
  | .hbm, ⟨40, _⟩ => ⟨S32x8x1408, .bf16⟩
  | .hbm, ⟨41, _⟩ => ⟨S32x8x1408, .bf16⟩
  | .hbm, ⟨42, _⟩ => ⟨S8x1408x16, .bf16⟩
  | .hbm, ⟨43, _⟩ => ⟨S4096x16, .bf16⟩
  | .hbm, ⟨44, _⟩ => ⟨S256x16, .f32⟩
  | .hbm, ⟨45, _⟩ => ⟨S256x11264, .f32⟩
  | .hbm, ⟨46, _⟩ => ⟨S256x11008, .f32⟩
  | .local _ .vmem, ⟨0, _⟩ => ⟨S256x4096, .bf16⟩
  | .local _ .vmem, ⟨1, _⟩ => ⟨S2048x128, .i32⟩
  | .local _ .vmem, ⟨2, _⟩ => ⟨S2048x128, .i32⟩
  | .local _ .vmem, ⟨3, _⟩ => ⟨S16x8x128, .bf16⟩
  | .local _ .vmem, ⟨4, _⟩ => ⟨S16x8x128, .bf16⟩
  | .local _ .vmem, ⟨5, _⟩ => ⟨S16x8x128, .bf16⟩
  | .local _ .vmem, ⟨6, _⟩ => ⟨S16x8x128, .bf16⟩
  | .local _ .vmem, ⟨7, _⟩ => ⟨S256x16, .f32⟩
  | .local _ .vmem, ⟨8, _⟩ => ⟨S8x128x16, .bf16⟩
  | .local _ .vmem, ⟨9, _⟩ => ⟨S8x128x16, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S2048x1024, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call1_v0 : Ref sig .tc := ⟨.hbm, 24, rfl⟩
abbrev main_v13 : Ref sig .tc := ⟨.hbm, 25, rfl⟩
abbrev main_c_3 : Ref sig .tc := ⟨.hbm, 26, rfl⟩
abbrev main_call2_v0 : Ref sig .tc := ⟨.hbm, 27, rfl⟩
abbrev main_v14 : Ref sig .tc := ⟨.hbm, 28, rfl⟩
abbrev main_c_4 : Ref sig .tc := ⟨.hbm, 29, rfl⟩
abbrev main_call3_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![11, 2], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def k0_cond2 (i : grid0.Coords) : BitVec 1 :=
  let arg1 : BitVec 32 := BitVec.ofNat 32 (i 1).val
  let c1_i32 : BitVec 32 := 1#32
  let v177 : BitVec 1 := Scalar.cmpi .eq arg1 c1_i32
  let v178 : BitVec 32 := Scalar.extui v177
  let c0_i32_67 : BitVec 32 := 0#32
  let v179 : BitVec 1 := Scalar.cmpi .ne v178 c0_i32_67
  v179

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x128x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  pads_S4096x1376_S4096x1408_000_0320 : S4096x1376.Pads (![0, 0] : Fin 2 → Nat) ![0, 32] ![0, 0] S4096x1408
  h_S_ : 0 < S_.numel
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  pads_S32x11008_S32x11264_000_02560 : S32x11008.Pads (![0, 0] : Fin 2 → Nat) ![0, 256] ![0, 0] S32x11264
  pads_S11008x16_S11264x16_02560_000 : S11008x16.Pads (![0, 0] : Fin 2 → Nat) ![256, 0] ![0, 0] S11264x16
  shapeCasts_S32x11264_S32x1408x8 : S32x11264.ShapeCasts S32x1408x8
  transposes_S32x1408x8_S32x8x1408_0_2_1 : S32x1408x8.Transposes [0, 2, 1] S32x8x1408
  shapeCasts_S11264x16_S1408x8x16 : S11264x16.ShapeCasts S1408x8x16
  transposes_S1408x8x16_S8x1408x16_1_0_2 : S1408x8x16.Transposes [1, 0, 2] S8x1408x16
  bitsLt_bf16_f32 : FTy.bits .bf16 < FTy.bits .f32
  transposes_S16x4096_S4096x16_1_0 : S16x4096.Transposes [1, 0] S4096x16
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  h_S256x2048 : 0 < S256x2048.numel
  shapeCasts_S256x2048_S256x2048 : S256x2048.ShapeCasts S256x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048x128_S16x128x128 : S2048x128.ShapeCasts S16x128x128
  inb_S16x8x128_S16x1x128_0_0_0 : ∀ a, (![0, 0, 0] : Fin 3 → Nat) a + S16x1x128.size a ≤ S16x8x128.size a
  h_S16x1x128 : 0 < S16x1x128.numel
  shapeCasts_S16x1x128_S16x128 : S16x1x128.ShapeCasts S16x128
  shapeCasts_S16x128_S16x1x128 : S16x128.ShapeCasts S16x1x128
  broadcasts_S16x1x128_S16x128x128 : S16x1x128.Broadcasts S16x128x128
  shapeCasts_S16x128x128_S2048x128 : S16x128x128.ShapeCasts S2048x128
  inb_S2048x1024_S2048x128_0_0 : ∀ a, (![0, 0] : Fin 2 → Nat) a + S2048x128.size a ≤ S2048x1024.size a
  packedbf16_S2048x1024_S2048x128_0_0 : (Rect.unit (s := S2048x1024) ![0, 0] S2048x128.size inb_S2048x1024_S2048x128_0_0).PackedRows (EltTy.packing .bf16)
  inb_S16x8x128_S16x1x128_0_1_0 : ∀ a, (![0, 1, 0] : Fin 3 → Nat) a + S16x1x128.size a ≤ S16x8x128.size a
  inb_S2048x1024_S2048x128_0_128 : ∀ a, (![0, 128] : Fin 2 → Nat) a + S2048x128.size a ≤ S2048x1024.size a
  packedbf16_S2048x1024_S2048x128_0_128 : (Rect.unit (s := S2048x1024) ![0, 128] S2048x128.size inb_S2048x1024_S2048x128_0_128).PackedRows (EltTy.packing .bf16)
  inb_S16x8x128_S16x1x128_0_2_0 : ∀ a, (![0, 2, 0] : Fin 3 → Nat) a + S16x1x128.size a ≤ S16x8x128.size a
  inb_S2048x1024_S2048x128_0_256 : ∀ a, (![0, 256] : Fin 2 → Nat) a + S2048x128.size a ≤ S2048x1024.size a
  packedbf16_S2048x1024_S2048x128_0_256 : (Rect.unit (s := S2048x1024) ![0, 256] S2048x128.size inb_S2048x1024_S2048x128_0_256).PackedRows (EltTy.packing .bf16)
  inb_S16x8x128_S16x1x128_0_3_0 : ∀ a, (![0, 3, 0] : Fin 3 → Nat) a + S16x1x128.size a ≤ S16x8x128.size a
  inb_S2048x1024_S2048x128_0_384 : ∀ a, (![0, 384] : Fin 2 → Nat) a + S2048x128.size a ≤ S2048x1024.size a
  packedbf16_S2048x1024_S2048x128_0_384 : (Rect.unit (s := S2048x1024) ![0, 384] S2048x128.size inb_S2048x1024_S2048x128_0_384).PackedRows (EltTy.packing .bf16)
  inb_S16x8x128_S16x1x128_0_4_0 : ∀ a, (![0, 4, 0] : Fin 3 → Nat) a + S16x1x128.size a ≤ S16x8x128.size a
  inb_S2048x1024_S2048x128_0_512 : ∀ a, (![0, 512] : Fin 2 → Nat) a + S2048x128.size a ≤ S2048x1024.size a
  packedbf16_S2048x1024_S2048x128_0_512 : (Rect.unit (s := S2048x1024) ![0, 512] S2048x128.size inb_S2048x1024_S2048x128_0_512).PackedRows (EltTy.packing .bf16)
  inb_S16x8x128_S16x1x128_0_5_0 : ∀ a, (![0, 5, 0] : Fin 3 → Nat) a + S16x1x128.size a ≤ S16x8x128.size a
  inb_S2048x1024_S2048x128_0_640 : ∀ a, (![0, 640] : Fin 2 → Nat) a + S2048x128.size a ≤ S2048x1024.size a
  packedbf16_S2048x1024_S2048x128_0_640 : (Rect.unit (s := S2048x1024) ![0, 640] S2048x128.size inb_S2048x1024_S2048x128_0_640).PackedRows (EltTy.packing .bf16)
  inb_S16x8x128_S16x1x128_0_6_0 : ∀ a, (![0, 6, 0] : Fin 3 → Nat) a + S16x1x128.size a ≤ S16x8x128.size a
  inb_S2048x1024_S2048x128_0_768 : ∀ a, (![0, 768] : Fin 2 → Nat) a + S2048x128.size a ≤ S2048x1024.size a
  packedbf16_S2048x1024_S2048x128_0_768 : (Rect.unit (s := S2048x1024) ![0, 768] S2048x128.size inb_S2048x1024_S2048x128_0_768).PackedRows (EltTy.packing .bf16)
  inb_S16x8x128_S16x1x128_0_7_0 : ∀ a, (![0, 7, 0] : Fin 3 → Nat) a + S16x1x128.size a ≤ S16x8x128.size a
  inb_S2048x1024_S2048x128_0_896 : ∀ a, (![0, 896] : Fin 2 → Nat) a + S2048x128.size a ≤ S2048x1024.size a
  packedbf16_S2048x1024_S2048x128_0_896 : (Rect.unit (s := S2048x1024) ![0, 896] S2048x128.size inb_S2048x1024_S2048x128_0_896).PackedRows (EltTy.packing .bf16)
  inb_S2048x1024_S2048x1024_0_0 : ∀ a, (![0, 0] : Fin 2 → Nat) a + S2048x1024.size a ≤ S2048x1024.size a
  h_S2048x1024 : 0 < S2048x1024.numel
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S8x128x16_S8x128x16_0_0_0 : ∀ a, (![0, 0, 0] : Fin 3 → Nat) a + S8x128x16.size a ≤ S8x128x16.size a
  h_S8x128x16 : 0 < S8x128x16.numel
  shapeCasts_S8x128x16_S8x128x16 : S8x128x16.ShapeCasts S8x128x16
  shapeCasts_S8x128x16_S1024x16 : S8x128x16.ShapeCasts S1024x16
  transposes_S1024x16_p1_0_S16x1024 : S1024x16.Transposes [1, 0] S16x1024
  shapeCasts_S256x1024_S256x8x128 : S256x1024.ShapeCasts S256x8x128
  transposes_S256x8x128_p0_2_1_S256x128x8 : S256x8x128.Transposes [0, 2, 1] S256x128x8
  shapeCasts_S256x128x8_S256x1024 : S256x128x8.ShapeCasts S256x1024
  slices_S256x11264_S256x11008_0_0 : S256x11264.Slices ![0, 0] S256x11008
  dot_S256x4096_S4096x16_S256x16_1_0_0_1_n_n_wf : DotDims.WF S256x4096 S4096x16 S256x16 [1] [0] [0] [1] [] []
  dot_S256x2048_S2048x1024_S256x1024_1_0_0_1_n_n_wf : DotDims.WF S256x2048 S2048x1024 S256x1024 [1] [0] [0] [1] [] []
  dot_S256x16_S16x1024_S256x1024_1_0_0_1_n_n_wf : DotDims.WF S256x16 S16x1024 S256x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S256x2048.size a ≤ S256x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S4096x1408.size a
  hwx0_1 : ∀ i : grid0.Coords, EltTy.bits .i32 = 32 ∨ (Rect.block (s := S4096x1408) S2048x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8x128.size a ≤ S32x8x1408.size a
  hwx0_2 : ∀ i : grid0.Coords, EltTy.bits .bf16 = 32 ∨ (Rect.block (s := S32x8x1408) S16x8x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x8x128.size a ≤ S32x8x1408.size a
  hwx0_3 : ∀ i : grid0.Coords, EltTy.bits .bf16 = 32 ∨ (Rect.block (s := S32x8x1408) S16x8x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S256x16.size a
  hwx0_4 : ∀ i : grid0.Coords, EltTy.bits .f32 = 32 ∨ (Rect.block (s := S256x16) S256x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128x16.size a ≤ S8x1408x16.size a
  hwx0_5 : ∀ i : grid0.Coords, EltTy.bits .bf16 = 32 ∨ (Rect.block (s := S8x1408x16) S8x128x16.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S256x11264.size a
  hwx0_6 : ∀ i : grid0.Coords, EltTy.bits .f32 = 32 ∨ (Rect.block (s := S256x11264) S256x1024.size (cc0_transform_6 i) (hinb0_6 i)).WholeWords (EltTy.packing .f32)

variable [Facts₀]

def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x16_S16x1024_S256x1024_1_0_0_1_n_n : DotDims S256x16 S16x1024 S256x1024 where
  lhsContracting := [1]
  rhsContracting := [0]
  lhsNonContracting := [0]
  rhsNonContracting := [1]
  lhsBatch := []
  rhsBatch := []
  wf := dot_S256x16_S16x1024_S256x1024_1_0_0_1_n_n_wf

abbrev win0_0 : Pipeline.Window sig grid0 :=
  Pipeline.Window.ofSpec (Memref.whole main_v22) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S16x8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S16x8x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S256x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S8x128x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S256x4096 : Shape := ⟨2, ![256, 4096]⟩
abbrev S4096x1376 : Shape := ⟨2, ![4096, 1376]⟩
abbrev S32x1376 : Shape := ⟨2, ![32, 1376]⟩
abbrev S32x11008 : Shape := ⟨2, ![32, 11008]⟩
abbrev S16x4096 : Shape := ⟨2, ![16, 4096]⟩
abbrev S11008x16 : Shape := ⟨2, ![11008, 16]⟩
abbrev S8 : Shape := ⟨1, ![8]⟩
abbrev S_ : Shape := ⟨0, ![]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S32x1x11008 : Shape := ⟨3, ![32, 1, 11008]⟩
abbrev S256x11008 : Shape := ⟨2, ![256, 11008]⟩
abbrev S4096x16 : Shape := ⟨2, ![4096, 16]⟩
abbrev S256x16 : Shape := ⟨2, ![256, 16]⟩
abbrev S16x11008 : Shape := ⟨2, ![16, 11008]⟩

abbrev nBuf : Space → Nat
  | .hbm => 51
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S16x4096, .f32⟩
  | .hbm, ⟨5, _⟩ => ⟨S11008x16, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S4096x1376x1, .i32⟩
  | .hbm, ⟨11, _⟩ => ⟨S1x1x8, .i32⟩
  | .hbm, ⟨12, _⟩ => ⟨S4096x1376x8, .i32⟩
  | .hbm, ⟨13, _⟩ => ⟨S4096x1376x8, .i32⟩
  | .hbm, ⟨14, _⟩ => ⟨S4096x1376x8, .i32⟩
  | .hbm, ⟨15, _⟩ => ⟨S_, .i32⟩
  | .hbm, ⟨16, _⟩ => ⟨S4096x1376x8, .i32⟩
  | .hbm, ⟨17, _⟩ => ⟨S4096x1376x8, .i32⟩
  | .hbm, ⟨18, _⟩ => ⟨S4096x11008, .i32⟩
  | .hbm, ⟨19, _⟩ => ⟨S4096x11008, .f32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S32x1376x1, .i32⟩
  | .hbm, ⟨25, _⟩ => ⟨S1x1x8, .i32⟩
  | .hbm, ⟨26, _⟩ => ⟨S32x1376x8, .i32⟩
  | .hbm, ⟨27, _⟩ => ⟨S32x1376x8, .i32⟩
  | .hbm, ⟨28, _⟩ => ⟨S32x1376x8, .i32⟩
  | .hbm, ⟨29, _⟩ => ⟨S_, .i32⟩
  | .hbm, ⟨30, _⟩ => ⟨S32x1376x8, .i32⟩
  | .hbm, ⟨31, _⟩ => ⟨S32x1376x8, .i32⟩
  | .hbm, ⟨32, _⟩ => ⟨S32x11008, .i32⟩
  | .hbm, ⟨33, _⟩ => ⟨S32x11008, .f32⟩
  | .hbm, ⟨34, _⟩ => ⟨S32x128x11008, .f32⟩
  | .hbm, ⟨35, _⟩ => ⟨S32x1x11008, .f32⟩
  | .hbm, ⟨36, _⟩ => ⟨S32x128x11008, .f32⟩
  | .hbm, ⟨37, _⟩ => ⟨S32x128x11008, .f32⟩
  | .hbm, ⟨38, _⟩ => ⟨S32x1x11008, .f32⟩
  | .hbm, ⟨39, _⟩ => ⟨S32x128x11008, .f32⟩
  | .hbm, ⟨40, _⟩ => ⟨S32x128x11008, .f32⟩
  | .hbm, ⟨41, _⟩ => ⟨S4096x11008, .f32⟩
  | .hbm, ⟨42, _⟩ => ⟨S256x11008, .f32⟩
  | .hbm, ⟨43, _⟩ => ⟨S4096x16, .f32⟩
  | .hbm, ⟨44, _⟩ => ⟨S256x16, .f32⟩
  | .hbm, ⟨45, _⟩ => ⟨S16x11008, .f32⟩
  | .hbm, ⟨46, _⟩ => ⟨S256x11008, .f32⟩
  | .hbm, ⟨47, _⟩ => ⟨S_, .f32⟩
  | .hbm, ⟨48, _⟩ => ⟨S256x11008, .f32⟩
  | .hbm, ⟨49, _⟩ => ⟨S256x11008, .f32⟩
  | .hbm, ⟨50, _⟩ => ⟨S256x11008, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  transposes_S16x4096_S4096x16_1_0 : S16x4096.Transposes [1, 0] S4096x16
  transposes_S11008x16_S16x11008_1_0 : S11008x16.Transposes [1, 0] S16x11008
  bcast_S_S256x11008 : S_.BroadcastsInDim S256x11008 (![] : Fin 0 → Fin S256x11008.rank)
  dot_S256x4096_S4096x11008_S256x11008_1_0_0_1_n_n_wf : DotDims.WF S256x4096 S4096x11008 S256x11008 [1] [0] [0] [1] [] []
  dot_S256x4096_S4096x16_S256x16_1_0_0_1_n_n_wf : DotDims.WF S256x4096 S4096x16 S256x16 [1] [0] [0] [1] [] []
  dot_S256x16_S16x11008_S256x11008_1_0_0_1_n_n_wf : DotDims.WF S256x16 S16x11008 S256x11008 [1] [0] [0] [1] [] []

variable [Facts₀]

def dot_S256x4096_S4096x11008_S256x11008_1_0_0_1_n_n : DotDims S256x4096 S4096x11008 S256x11008 where
  lhsContracting := [1]
  rhsContracting := [0]
  lhsNonContracting := [0]
  rhsNonContracting := [1]
  lhsBatch := []
  rhsBatch := []
  wf := dot_S256x4096_S4096x11008_S256x11008_1_0_0_1_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S16x11008_S256x11008_1_0_0_1_n_n : DotDims S256x16 S16x11008 S256x11008 where
  lhsContracting := [1]
  rhsContracting := [0]
  lhsNonContracting := [0]
  rhsNonContracting := [1]
  lhsBatch := []
  rhsBatch := []
  wf := dot_S256x16_S16x11008_S256x11008_1_0_0_1_n_n_wf

class Facts : Prop extends Facts₀ where

variable [Facts]
-- ==== Proof.DequantLinear.lean ====
/-
  The function both programs compute, written once over the argument arrays.

  A linear layer whose weight matrix is stored as 4-bit integers, eight to a 32-bit word, with one zero point and one
  scale per group of 128 input rows and per output column, plus a rank-16 update scaled by 2:

    out[t, o] = ∑ₖ x[t, k] · ((q(k, o) − z(⌊k/128⌋, o)) · s[⌊k/128⌋, o])  +  2 · ∑ᵣ (∑ₖ x[t, k] · A[r, k]) · B[o, r]

  where output column `o` lives in packed column `⌊o/8⌋` as nibble `o mod 8`: `q(k, o)` is that nibble of the
  packed weight word at `(k, ⌊o/8⌋)` and `z(g, o)` that nibble of the packed zero-point word at `(g, ⌊o/8⌋)`, each read
  as an integer in [0, 16). Everything is over the extended reals; no law beyond the ones of a commutative monoid under
  `+` is used to bring either program to this form, so no finiteness of the inputs is needed.
-/
import Idealize.ShloMosaic.PureOps.Ideal
import Idealize.ShloMosaic.PureOps.Ideal.Laws
import Idealize.ShloMosaic.Lib.ValueIdx

noncomputable section

open scoped BigOperators

namespace Cert.Dequant

open Idealize.ShloMosaic Idealize.ShloMosaic.ValueIdx

/-- The shapes of the six arguments and of the result. -/
abbrev SX : Shape := ⟨2, ![256, 4096]⟩
abbrev SQW : Shape := ⟨2, ![4096, 1376]⟩
abbrev SQZ : Shape := ⟨2, ![32, 1376]⟩
abbrev SSC : Shape := ⟨2, ![32, 11008]⟩
abbrev SLA : Shape := ⟨2, ![16, 4096]⟩
abbrev SLB : Shape := ⟨2, ![11008, 16]⟩
abbrev SOUT : Shape := ⟨2, ![256, 11008]⟩

/-- Nibble `j` of a packed word: an arithmetic shift right by `4j` bits, then the low four bits. -/
def nibble (w : BitVec 32) (j : Fin 8) : BitVec 32 :=
  IntOp.andi (IntOp.shrsi .vector w (BitVec.ofNat 32 (4 * j.val))) 15#32

/-- The nibble as an extended real: the word read as a signed integer. -/
def nib (w : BitVec 32) (j : Fin 8) : EReal := (((nibble w j).toInt : ℝ) : EReal)

/-- The packed column that holds output column `o`, -/
abbrev pcol (o : Fin 11008) : Fin 1376 := ⟨o.val / 8, by have := o.isLt; omega⟩
/-- the nibble of it that is `o`'s, -/
abbrev lane (o : Fin 11008) : Fin 8 := ⟨o.val % 8, by omega⟩
/-- and the quantisation group of input row `k`. -/
abbrev grp (k : Fin 4096) : Fin 32 := ⟨k.val / 128, by have := k.isLt; omega⟩

/-- The dequantised weight at input row `k`, output column `o`: (nibble − zero point) · scale. -/
def weight (qw : IVec SQW 32) (qz : IVec SQZ 32) (sc : FVec Ideal SSC .f32) (k : Fin 4096) (o : Fin 11008) : EReal :=
  (nib (qw (ix2 k (pcol o))) (lane o) - nib (qz (ix2 (grp k) (pcol o))) (lane o)) * sc (ix2 (grp k) o)

/-- The first stage of the low-rank update: `x · Aᵀ` at token `t`, rank index `r`. -/
def lowRankIn (x : FVec Ideal SX .f32) (la : FVec Ideal SLA .f32) (t : Fin 256) (r : Fin 16) : EReal :=
  ∑ k : Fin 4096, x (ix2 t k) * la (ix2 r k)

/-- The layer at token `t`, output column `o`. -/
def layerAt (x : FVec Ideal SX .f32) (qw : IVec SQW 32) (qz : IVec SQZ 32) (sc : FVec Ideal SSC .f32)
    (la : FVec Ideal SLA .f32) (lb : FVec Ideal SLB .f32) (t : Fin 256) (o : Fin 11008) : EReal :=
  (∑ k : Fin 4096, x (ix2 t k) * weight qw qz sc k o)
    + Ideal.ofBits .f32 0x40000000#32 * ∑ r : Fin 16, lowRankIn x la t r * lb (ix2 o r)

/-- The layer as one array. -/
def layer (x : FVec Ideal SX .f32) (qw : IVec SQW 32) (qz : IVec SQZ 32) (sc : FVec Ideal SSC .f32)
    (la : FVec Ideal SLA .f32) (lb : FVec Ideal SLB .f32) : FVec Ideal SOUT .f32 :=
  fun i => layerAt x qw qz sc la lb (i 0) (i 1)

/-- Below the word width the host's arithmetic shift is the vector unit's. -/
theorem shrsi_host (w s : BitVec 32) (h : s.toNat < 32) : IntOp.shrsi .host w s = IntOp.shrsi .vector w s := by
  simp [IntOp.shrsi, h]

/-- The shift amount the host computes for nibble `j`, `j · 4` as words, is the word `4j`. -/
theorem shift_word (j : Fin 8) : IntOp.muli (BitVec.ofNat 32 j.val) 4#32 = BitVec.ofNat 32 (4 * j.val) := by
  revert j; decide

/-- It is below the word width. -/
theorem shift_lt (j : Fin 8) : (BitVec.ofNat 32 (4 * j.val)).toNat < 32 := by
  revert j; decide

/-- A nibble as the host spells it: shift by `iota · 4`, mask with 15. -/
theorem nibble_host (w : BitVec 32) (j : Fin 8) :
    IntOp.andi (IntOp.shrsi .host w (IntOp.muli (BitVec.ofNat 32 j.val) 4#32)) 15#32 = nibble w j := by
  rw [shift_word, shrsi_host _ _ (shift_lt j)]; rfl

/-- The conversion of a word to a float, at the ideal values, in any format: the signed integer. -/
theorem sitofp_eq (φ : FTy) (w : BitVec 32) : FloatOps.sitofp (F := Ideal) φ w = ((w.toInt : ℝ) : EReal) := rfl

end Cert.Dequant

end
-- ==== Proof.TileShare.lean ====
/-
  One grid point's share of the layer.

  The kernel walks a grid of 11 column tiles × 2 halves of the input rows. At a point it sees the whole `x`, a
  2048 × 128 tile of packed weight words, the zero points and scales of that tile's 16 groups for each of the 8 nibble
  planes, and (at the second half) the first low-rank stage and the tile's 8 × 128 rows of `B`. Plane `j`, packed column
  `cc` of the tile is output column `8·cc + j` of the tile; the accumulator keeps it at plane-major position
  `128·j + cc`, and the last point interleaves. The definitions below name a point's contribution; `sum_halves` is the
  one law that joins the two halves into the layer's sum over all 4096 input rows.
-/
import proofs.«427479_j4337916969000_3_alg».proof.Proof.DequantLinear

noncomputable section

open scoped BigOperators

namespace Cert.Dequant

open Idealize.ShloMosaic Idealize.ShloMosaic.ValueIdx

/-- The shapes a grid point sees. -/
abbrev SQB : Shape := ⟨2, ![2048, 128]⟩
abbrev SZB : Shape := ⟨3, ![16, 8, 128]⟩
abbrev SLP : Shape := ⟨2, ![256, 16]⟩
abbrev SBB : Shape := ⟨3, ![8, 128, 16]⟩
abbrev SACC : Shape := ⟨2, ![256, 1024]⟩

/-- The group, among the tile's 16, of the tile's row `r`. -/
abbrev tileGrp (r : Fin 2048) : Fin 16 := ⟨r.val / 128, by have := r.isLt; omega⟩

/-- The dequantised weight of the tile at row `r`, nibble plane `j`, packed column `cc`. -/
def tileWeight (q : IVec SQB 32) (z s : FVec Ideal SZB .bf16) (r : Fin 2048) (j : Fin 8) (cc : Fin 128) : EReal :=
  (nib (q (ix2 r cc)) j - z (ix3 (tileGrp r) j cc)) * s (ix3 (tileGrp r) j cc)

/-- One half's dot product: the 2048 input rows from `off` on, against the tile. -/
def halfDot (x : FVec Ideal SX .bf16) (off : Nat) (hoff : off + 2048 ≤ 4096) (q : IVec SQB 32) (z s : FVec Ideal SZB .bf16)
    (t : Fin 256) (j : Fin 8) (cc : Fin 128) : EReal :=
  ∑ r : Fin 2048, x (ix2 t ⟨off + r.val, by have := r.isLt; omega⟩) * tileWeight q z s r j cc

/-- The low-rank term of the tile: the first stage against the tile's rows of `B`. -/
def lowRankOut (lp : FVec Ideal SLP .f32) (b : FVec Ideal SBB .bf16) (t : Fin 256) (j : Fin 8) (cc : Fin 128) : EReal :=
  ∑ r : Fin 16, lp (ix2 t r) * b (ix3 j cc r)

/-- Plane-major position in the accumulator, -/
abbrev planeCol (j : Fin 8) (cc : Fin 128) : Fin 1024 := ⟨j.val * 128 + cc.val, by have := j.isLt; have := cc.isLt; omega⟩
/-- and interleaved position in the tile's output block. -/
abbrev outCol (j : Fin 8) (cc : Fin 128) : Fin 1024 := ⟨cc.val * 8 + j.val, by have := j.isLt; have := cc.isLt; omega⟩

/-- A sum over the 4096 input rows is the sum over the first 2048 plus the sum over the last 2048. -/
theorem sum_halves {M : Type} [AddCommMonoid M] (f : Fin 4096 → M) :
    ∑ k : Fin 4096, f k
      = (∑ r : Fin 2048, f ⟨r.val, by have := r.isLt; omega⟩) + ∑ r : Fin 2048, f ⟨2048 + r.val, by have := r.isLt; omega⟩ := by
  show ∑ k : Fin (2048 + 2048), f k = _
  rw [Fin.sum_univ_add]
  rfl

end Cert.Dequant

end
-- ==== Proof.OutPayload.lean ====
/-
  The body's final store at an index.

  At a tile's second half the body forms `acc + 2 · (lp · Bᵀ)` over the plane-major columns `128·j + cc` (`B`'s block
  of 8 × 128 rows flattened to 1024 rows, transposed for the product), then regroups the 1024 columns as 8 planes of 128,
  swaps planes and packed columns, and flattens again: output column `8·cc + j` holds plane-major column `128·j + cc`.
-/
import proofs.«427479_j4337916969000_3_alg».proof.Proof.Gen.KernelIdeal.Skeleton
import proofs.«427479_j4337916969000_3_alg».proof.Proof.TileShare
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.Dequant

/-- The matmul's left operand index keeps the output row, -/
theorem lhs_pay3_0 (i : S256x1024.Idx) (q : dot_S256x16_S16x1024_S256x1024_1_0_0_1_n_n.contr.Idx) :
    (dot_S256x16_S16x1024_S256x1024_1_0_0_1_n_n.lhsIdx i q 0).val = (i 0).val := by
  unfold DotDims.lhsIdx
  rw [dif_neg (show ¬(0 : Fin S256x16.rank) ∈ dot_S256x16_S16x1024_S256x1024_1_0_0_1_n_n.lhsBatch by decide),
    dif_pos (show (0 : Fin S256x16.rank) ∈ dot_S256x16_S16x1024_S256x1024_1_0_0_1_n_n.lhsNonContracting by decide)]
  rfl
/-- and runs along the contraction on its second axis; -/
theorem lhs_pay3_1 (i : S256x1024.Idx) (q : dot_S256x16_S16x1024_S256x1024_1_0_0_1_n_n.contr.Idx) :
    (dot_S256x16_S16x1024_S256x1024_1_0_0_1_n_n.lhsIdx i q 1).val = (q ⟨0, by decide⟩).val :=
  dot_S256x16_S16x1024_S256x1024_1_0_0_1_n_n.lhsIdx_val_of_single rfl i q
/-- the right operand index runs along the contraction on its first axis -/
theorem rhs_pay3_0 (i : S256x1024.Idx) (q : dot_S256x16_S16x1024_S256x1024_1_0_0_1_n_n.contr.Idx) :
    (dot_S256x16_S16x1024_S256x1024_1_0_0_1_n_n.rhsIdx i q 0).val = (q ⟨0, by decide⟩).val :=
  dot_S256x16_S16x1024_S256x1024_1_0_0_1_n_n.rhsIdx_val_of_single rfl i q
/-- and keeps the output column. -/
theorem rhs_pay3_1 (i : S256x1024.Idx) (q : dot_S256x16_S16x1024_S256x1024_1_0_0_1_n_n.contr.Idx) :
    (dot_S256x16_S16x1024_S256x1024_1_0_0_1_n_n.rhsIdx i q 1).val = (i 1).val := by
  unfold DotDims.rhsIdx
  rw [dif_neg (show ¬(1 : Fin S16x1024.rank) ∈ dot_S256x16_S16x1024_S256x1024_1_0_0_1_n_n.rhsBatch by decide),
    dif_pos (show (1 : Fin S16x1024.rank) ∈ dot_S256x16_S16x1024_S256x1024_1_0_0_1_n_n.rhsNonContracting by decide)]
  rfl

/-- The 256 × 16 by 16 × 1024 product into a zero accumulator, read at `(t, c)`: the sum over the rank index. -/
theorem rankDot_apply (lhs : FVec Ideal S256x16 .bf16) (rhs : FVec Ideal S16x1024 .bf16) (t : Fin 256) (c : Fin 1024) :
    matmul dot_S256x16_S16x1024_S256x1024_1_0_0_1_n_n none lhs rhs (constant S256x1024 .f32 0x00000000#32) (ix2 t c)
      = ∑ r : Fin 16, lhs (ix2 t r) * rhs (ix2 r c) := by
  simp only [matmul]
  rw [Ideal.matmul_constant_zero_apply,
    ← Equiv.sum_comp (contrEquiv1 dot_S256x16_S16x1024_S256x1024_1_0_0_1_n_n 16 rfl rfl).symm]
  refine Finset.sum_congr rfl fun k _ => ?_
  have hk := contrEquiv1_symm_val dot_S256x16_S16x1024_S256x1024_1_0_0_1_n_n 16 rfl rfl k
  have el : dot_S256x16_S16x1024_S256x1024_1_0_0_1_n_n.lhsIdx (ix2 t c)
      ((contrEquiv1 dot_S256x16_S16x1024_S256x1024_1_0_0_1_n_n 16 rfl rfl).symm k) = ix2 t k :=
    funext fun a => Fin.ext (by
      match a with
      | ⟨0, _⟩ => exact lhs_pay3_0 _ _
      | ⟨1, _⟩ => exact (lhs_pay3_1 _ _).trans hk)
  have er : dot_S256x16_S16x1024_S256x1024_1_0_0_1_n_n.rhsIdx (ix2 t c)
      ((contrEquiv1 dot_S256x16_S16x1024_S256x1024_1_0_0_1_n_n 16 rfl rfl).symm k) = ix2 k c :=
    funext fun a => Fin.ext (by
      match a with
      | ⟨0, _⟩ => exact (rhs_pay3_0 _ _).trans hk
      | ⟨1, _⟩ => exact rhs_pay3_1 _ _)
  rw [el, er]

/-- The final store's payload at output column `8·cc + j`: the accumulator at plane-major column `128·j + cc` plus twice
    the tile's low-rank term. -/
theorem pay3_apply (v180 : Vec Ideal S256x16 .f32) (v183 : Vec Ideal S8x128x16 .bf16) (v188 : Vec Ideal S256x1024 .f32)
    (t : Fin 256) (j : Fin 8) (cc : Fin 128) :
    k0_pay3 (F := Ideal) v180 v183 v188 (ix2 t (outCol j cc))
      = v188 (ix2 t (planeCol j cc)) + Ideal.ofBits .f32 0x40000000#32 * lowRankOut v180 v183 t j cc := by
  have ht := t.isLt
  have hj := j.isLt
  have hc := cc.isLt
  unfold k0_pay3
  -- the last flattening: column `8·cc + j` is `(cc, j)` of 128 × 8
  refine (shapeCast_apply _ _ (ix2 t (outCol j cc)) (ix3 t cc j) (by
    rw [Shape.rowMajor_val_three, Shape.rowMajor_val_two]
    show (t.val * 128 + cc.val) * 8 + j.val = t.val * 1024 + (cc.val * 8 + j.val)
    omega)).trans ?_
  -- the swap of the last two axes
  refine (transpose_ix3_021_apply _ _ t cc j).trans ?_
  -- the regrouping of 1024 columns as 8 planes of 128: `(j, cc)` is column `128·j + cc`
  refine (shapeCast_apply _ _ (ix3 t j cc) (ix2 t (planeCol j cc)) (by
    rw [Shape.rowMajor_val_two, Shape.rowMajor_val_three]
    show t.val * 1024 + (j.val * 128 + cc.val) = (t.val * 8 + j.val) * 128 + cc.val
    omega)).trans ?_
  rw [addf_apply, mulf_apply, broadcast_apply, rankDot_apply]
  unfold lowRankOut
  refine congrArg (fun z => v188 (ix2 t (planeCol j cc)) + Ideal.ofBits .f32 0x40000000#32 * z)
    (Finset.sum_congr rfl fun r _ => ?_)
  -- the operands: the low-rank stage as it is, and `B`'s block flattened to 1024 rows and transposed
  rw [truncf_apply, shapeCast_self, transpose_ix2_apply,
    shapeCast_apply _ _ (ix2 (planeCol j cc) r) (ix3 j cc r) (by
      rw [Shape.rowMajor_val_three, Shape.rowMajor_val_two]
      rfl),
    shapeCast_self]

end Cert.KernelIdeal.Layer

end
-- ==== Proof.CaseValues.lean ====
/-
  What one run of the kernel body leaves behind, entry by entry.

  The body dequantises the tile plane by plane into a 2048 × 1024 scratch (plane `j` in columns `128·j …`), multiplies
  the half of `x` it loads by that scratch, and adds the product to the accumulator: at the first half after storing
  zeros there, at the second half onto what the first half left. At the second half it then adds twice the low-rank
  term and stores the sum with planes and packed columns interchanged. So, at accumulator position `(t, 128·j + cc)`:
  first half `0 + D₀`, second half `acc + D₁`, and the output block at `(t, 8·cc + j)` holds `(acc + D₁) + 2·L`,
  with `D` the half's dot product and `L` the low-rank term of TileShare.
-/
import proofs.«427479_j4337916969000_3_alg».proof.Proof.Gen.KernelIdeal.Frame
import proofs.«427479_j4337916969000_3_alg».proof.Proof.TileShare
import proofs.«427479_j4337916969000_3_alg».proof.Proof.OutPayload
import Idealize.ShloMosaic.Lib.Pipeline.Value
import Idealize.ShloMosaic.Lib.ValueIdx
import Idealize.ShloMosaic.Lib.ValueLayout
import Idealize.ShloMosaic.Lib.WholeRead
import Idealize.ShloMosaic.Lib.Tactic
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.Dequant

variable {F : FTy → Type} [FloatOps F]

/-- One nibble plane of the packed tile as a vector of floats: shift by `s`, mask, convert. -/
def nibVec (q : IVec S2048x128 32) (s : BitVec 32) : FVec F S2048x128 .bf16 :=
  sitofp .bf16 (andi (shrsi q (broadcast S2048x128 s)) (broadcast S2048x128 15#32))

/-- One plane of the dequantised tile as the body computes it. -/
def planeTerm (n3 : FVec F S16x128x128 .bf16) (zl sl : Vec F S16x1x128 .bf16) : FVec F S2048x128 .bf16 :=
  shapeCast S2048x128
    (shapeCast S2048x128
      (mulf
        (subf n3
          (broadcastTo S16x128x128 (shapeCast S16x1x128 (shapeCast S16x128 zl shapeCasts_S16x1x128_S16x128) shapeCasts_S16x128_S16x1x128)
            broadcasts_S16x1x128_S16x128x128))
        (broadcastTo S16x128x128 (shapeCast S16x1x128 (shapeCast S16x128 sl shapeCasts_S16x1x128_S16x128) shapeCasts_S16x128_S16x1x128)
          broadcasts_S16x1x128_S16x128x128))
      shapeCasts_S16x128x128_S2048x128)
    shapeCasts_S2048x128_S2048x128

theorem pay7_eq (v8 : Vec F S2048x128 .i32) (zl sl : Vec F S16x1x128 .bf16) :
    k0_pay7 v8 zl sl = planeTerm (shapeCast S16x128x128 (nibVec (k0_pay6 v8) 0#32) shapeCasts_S2048x128_S16x128x128) zl sl := rfl
theorem pay9_eq (v8 : Vec F S2048x128 .i32) (zl sl : Vec F S16x1x128 .bf16) :
    k0_pay9 (k0_pay8 v8) zl sl = planeTerm (shapeCast S16x128x128 (nibVec (k0_pay6 v8) 4#32) shapeCasts_S2048x128_S16x128x128) zl sl := rfl
theorem pay10_eq (v9 : IVec S2048x128 32) (zl sl : Vec F S16x1x128 .bf16) :
    k0_pay10 v9 zl sl = planeTerm (shapeCast S16x128x128 (nibVec v9 8#32) shapeCasts_S2048x128_S16x128x128) zl sl := rfl
theorem pay12_eq (v9 : IVec S2048x128 32) (zl sl : Vec F S16x1x128 .bf16) :
    k0_pay12 (k0_pay11 v9) zl sl = planeTerm (shapeCast S16x128x128 (nibVec v9 12#32) shapeCasts_S2048x128_S16x128x128) zl sl := rfl
theorem pay13_eq (v9 : IVec S2048x128 32) (zl sl : Vec F S16x1x128 .bf16) :
    k0_pay13 v9 zl sl = planeTerm (shapeCast S16x128x128 (nibVec v9 16#32) shapeCasts_S2048x128_S16x128x128) zl sl := rfl
theorem pay15_eq (v9 : IVec S2048x128 32) (zl sl : Vec F S16x1x128 .bf16) :
    k0_pay15 (k0_pay14 v9) zl sl = planeTerm (shapeCast S16x128x128 (nibVec v9 20#32) shapeCasts_S2048x128_S16x128x128) zl sl := rfl
theorem pay16_eq (v9 : IVec S2048x128 32) (zl sl : Vec F S16x1x128 .bf16) :
    k0_pay16 v9 zl sl = planeTerm (shapeCast S16x128x128 (nibVec v9 24#32) shapeCasts_S2048x128_S16x128x128) zl sl := rfl
theorem pay1_eq (v9 : IVec S2048x128 32) (zl sl : Vec F S16x1x128 .bf16) :
    k0_pay1 (k0_pay17 v9) 15#32 zl sl = planeTerm (shapeCast S16x128x128 (nibVec v9 28#32) shapeCasts_S2048x128_S16x128x128) zl sl := rfl

/-- The plane at an index. -/
theorem planeTerm_apply (nv : FVec Ideal S2048x128 .bf16) (zl sl : Vec Ideal S16x1x128 .bf16) (r : Fin 2048) (cc : Fin 128) :
    planeTerm (F := Ideal) (shapeCast S16x128x128 nv shapeCasts_S2048x128_S16x128x128) zl sl (ix2 r cc)
      = (nv (ix2 r cc) - zl (ix3 (tileGrp r) (0 : Fin 1) cc)) * sl (ix3 (tileGrp r) (0 : Fin 1) cc) := by
  unfold planeTerm
  rw [shapeCast_self]
  have hr := r.isLt
  have hc := cc.isLt
  rw [shapeCast_apply _ shapeCasts_S16x128x128_S2048x128 (ix2 r cc) (ix3 (tileGrp r) (⟨r.val % 128, by omega⟩ : Fin 128) cc)
    (by rw [Shape.rowMajor_val_three, Shape.rowMajor_val_two]; show (r.val / 128 * 128 + r.val % 128) * 128 + cc.val = r.val * 128 + cc.val; omega)]
  rw [mulf_apply, subf_apply]
  rw [shapeCast_shapeCast, shapeCast_shapeCast]
  rw [shapeCast_apply nv shapeCasts_S2048x128_S16x128x128 (ix3 (tileGrp r) (⟨r.val % 128, by omega⟩ : Fin 128) cc) (ix2 r cc)
    (by rw [Shape.rowMajor_val_three, Shape.rowMajor_val_two]; show r.val * 128 + cc.val = (r.val / 128 * 128 + r.val % 128) * 128 + cc.val; omega)]
  have hb : ∀ (X : Vec Ideal S16x1x128 .bf16), broadcastTo S16x128x128 X broadcasts_S16x1x128_S16x128x128
      (ix3 (tileGrp r) (⟨r.val % 128, by omega⟩ : Fin 128) cc) = X (ix3 (tileGrp r) (0 : Fin 1) cc) := fun X =>
    broadcastTo_apply X broadcasts_S16x1x128_S16x128x128 _ (ix3 (tileGrp r) (0 : Fin 1) cc) (fun a => match a with
      | ⟨0, _⟩ => by show (r.val / 128) = if (16 : Nat) = 1 then 0 else (r.val / 128); rw [if_neg (by decide)]
      | ⟨1, _⟩ => by show 0 = if (1 : Nat) = 1 then 0 else (r.val % 128); rw [if_pos rfl]
      | ⟨2, _⟩ => by show cc.val = if (128 : Nat) = 1 then 0 else cc.val; rw [if_neg (by decide)])
  rw [hb, hb]

/-- A nibble plane at an index: the nibble of the word there. -/
theorem nibVec_apply (q : IVec S2048x128 32) (j : Fin 8) (s : BitVec 32) (hs : s = BitVec.ofNat 32 (4 * j.val)) (i : S2048x128.Idx) :
    nibVec (F := Ideal) q s i = nib (q i) j := by
  subst hs; rfl

theorem hz2 : (![0, 0] : Fin 2 → Nat) = fun _ => 0 := funext fun a => by fin_cases a <;> rfl
theorem hz3 : (![0, 0, 0] : Fin 3 → Nat) = fun _ => 0 := funext fun a => by fin_cases a <;> rfl

/-- Row `j` of a whole 16 × 8 × 128 block, loaded as 16 × 1 × 128, read at `(g, 0, cc)`: the block at `(g, j, cc)`. -/
theorem plane_load (a : Memref sig .tc .vmem S16x8x128 .bf16) (ha : a.IsWhole) (x : Vec Ideal S16x8x128 .bf16) (j : Fin 8)
    (off : Fin 3 → Nat) (hoff : off = ![0, j.val, 0]) (inb : ∀ b, off b + S16x1x128.size b ≤ S16x8x128.size b)
    (g : Fin 16) (cc : Fin 128) :
    View.readAt (Elt Ideal) a.view (Rect.unit (s := S16x8x128) off S16x1x128.size inb).toLoadRect (ha.unread x) (ix3 g (0 : Fin 1) cc)
      = x (ix3 g j cc) := by
  subst hoff
  rw [ha.readAt_unread]
  congr 1
  funext b
  apply Fin.ext
  match b with
  | ⟨0, _⟩ => show 0 + 1 * g.val = g.val; omega
  | ⟨1, _⟩ => show j.val + 1 * 0 = j.val; omega
  | ⟨2, _⟩ => show 0 + 1 * cc.val = cc.val; omega

/-- The half of `x` loaded from column `off` on, read at `(t, r)`: `x` at `(t, off + r)`. -/
theorem half_load (a : Memref sig .tc .vmem S256x4096 .bf16) (ha : a.IsWhole) (x : Vec Ideal S256x4096 .bf16)
    (o : Fin 2 → Nat) (off : Nat) (ho : o = ![0, off]) (hoff : off + 2048 ≤ 4096) (inb : ∀ b, o b + S256x2048.size b ≤ S256x4096.size b)
    (t : Fin 256) (r : Fin 2048) :
    View.readAt (Elt Ideal) a.view (Rect.unit (s := S256x4096) o S256x2048.size inb).toLoadRect (ha.unread x) (ix2 t r)
      = x (ix2 t ⟨off + r.val, by have := r.isLt; omega⟩) := by
  subst ho
  rw [ha.readAt_unread]
  congr 1
  funext b
  apply Fin.ext
  match b with
  | ⟨0, _⟩ => show 0 + 1 * t.val = t.val; omega
  | ⟨1, _⟩ => show off + 1 * r.val = off + r.val; omega

/-! ## The two products at an index -/

theorem lhs_acc_0 (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_acc_1 (i : S256x1024.Idx) (q : dot_S256x2048_S2048x1024_S256x1024_1_0_0_1_n_n.contr.Idx) : (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_acc_0 (i : S256x1024.Idx) (q : dot_S256x2048_S2048x1024_S256x1024_1_0_0_1_n_n.contr.Idx) : (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_acc_1 (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The accumulate step at an index: the accumulator there plus the row of the loaded half against the scratch's column. -/
theorem pay2_apply (v7 : FVec Ideal S256x2048 .bf16) (v170 : Vec Ideal S2048x1024 .bf16) (v172 : Vec Ideal S256x1024 .f32)
    (t : Fin 256) (col : Fin 1024) :
    k0_pay2 (F := Ideal) v7 v170 v172 (ix2 t col) = v172 (ix2 t col) + ∑ r : Fin 2048, v7 (ix2 t r) * v170 (ix2 r col) := by
  unfold k0_pay2
  rw [shapeCast_self, addf_apply]
  congr 1
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 t col) ((contrEquiv1 dot_S256x2048_S2048x1024_S256x1024_1_0_0_1_n_n 2048 rfl rfl).symm k) = ix2 t k := funext fun a => Fin.ext (by
    match a with
    | ⟨0, _⟩ => exact lhs_acc_0 _ _
    | ⟨1, _⟩ => exact (lhs_acc_1 _ _).trans hk)
  have er : dot_S256x2048_S2048x1024_S256x1024_1_0_0_1_n_n.rhsIdx (ix2 t col) ((contrEquiv1 dot_S256x2048_S2048x1024_S256x1024_1_0_0_1_n_n 2048 rfl rfl).symm k) = ix2 k col := funext fun a => Fin.ext (by
    match a with
    | ⟨0, _⟩ => exact (rhs_acc_0 _ _).trans hk
    | ⟨1, _⟩ => exact rhs_acc_1 _ _)
  rw [el, er]

/-! ## The scratch: eight column pieces of one function -/

/-- The dequantised tile as the scratch holds it: plane `j` in columns `128·j …`. -/
def scratchFn (x1 : Vec Ideal S2048x128 .i32) (x2 x3 : Vec Ideal S16x8x128 .bf16) : S2048x1024.Idx → EReal := fun y =>
  tileWeight x1 x2 x3 ⟨(y 0).val, (y 0).isLt⟩
    ⟨(y 1).val / 128, by have h : (y 1).val < 1024 := (y 1).isLt; omega⟩ ⟨(y 1).val % 128, Nat.mod_lt _ (by decide)⟩

/-- Plane `j`'s store: its payload at a piece index is the scratch function at the piece's position. -/
theorem plane_piece (a3 : Memref sig .tc .vmem S2048x128 .i32) (h3 : a3.IsWhole) (a4 : Memref sig .tc .vmem S16x8x128 .bf16) (h4 : a4.IsWhole)
    (a5 : Memref sig .tc .vmem S16x8x128 .bf16) (h5 : a5.IsWhole)
    (x1 : Vec Ideal S2048x128 .i32) (x2 x3 : Vec Ideal S16x8x128 .bf16) (j : Fin 8) (s : BitVec 32) (hs : s = BitVec.ofNat 32 (4 * j.val))
    (o4 : Fin 3 → Nat) (ho4 : o4 = ![0, j.val, 0]) (inb4 : ∀ b, o4 b + S16x1x128.size b ≤ S16x8x128.size b)
    (oc : Fin 2 → Nat) (hoc : oc = ![0, 128 * j.val]) (inbc : ∀ b, oc b + S2048x128.size b ≤ S2048x1024.size b)
    (x : S2048x128.Idx) :
    planeTerm (F := Ideal)
        (shapeCast S16x128x128
          (nibVec (k0_pay6 (View.readAt (Elt Ideal) a3.view (Rect.unit (s := S2048x128) ![0, 0] S2048x128.size inb_S2048x128_S2048x128_0_0).toLoadRect (h3.unread x1))) s)
          shapeCasts_S2048x128_S16x128x128)
        (View.readAt (Elt Ideal) a4.view (Rect.unit (s := S16x8x128) o4 S16x1x128.size inb4).toLoadRect (h4.unread x2))
        (View.readAt (Elt Ideal) a5.view (Rect.unit (s := S16x8x128) o4 S16x1x128.size inb4).toLoadRect (h5.unread x3)) x
      = scratchFn x1 x2 x3 ((Rect.unit (s := S2048x1024) oc S2048x128.size inbc).emb x) := by
  obtain ⟨r, cc, rfl⟩ : ∃ (r : Fin 2048) (cc : Fin 128), x = ix2 r cc := ⟨x 0, x 1, eq_ix2 x⟩
  subst hoc
  rw [planeTerm_apply, nibVec_apply _ j s hs, plane_load a4 h4 x2 j o4 ho4 inb4, plane_load a5 h5 x3 j o4 ho4 inb4]
  unfold k0_pay6
  rw [shapeCast_self, h3.readAt_unread]
  have hj := j.isLt
  have hcc := cc.isLt
  have e1 : (Rect.unit (s := S2048x128) ![0, 0] S2048x128.size inb_S2048x128_S2048x128_0_0).toLoadRect.idx (ix2 r cc) = ix2 r cc :=
    funext fun b => Fin.ext (by
      match b with
      | ⟨0, _⟩ => show 0 + 1 * r.val = r.val; omega
      | ⟨1, _⟩ => show 0 + 1 * cc.val = cc.val; omega)
  rw [e1]
  unfold scratchFn tileWeight
  have er : (⟨(((Rect.unit (s := S2048x1024) ![0, 128 * j.val] S2048x128.size inbc).emb (ix2 r cc)) 0).val, (((Rect.unit (s := S2048x1024) ![0, 128 * j.val] S2048x128.size inbc).emb (ix2 r cc)) 0).isLt⟩ : Fin 2048) = r :=
    Fin.ext (by show 0 + 1 * r.val = r.val; omega)
  have ej : (⟨(((Rect.unit (s := S2048x1024) ![0, 128 * j.val] S2048x128.size inbc).emb (ix2 r cc)) 1).val / 128, by have h : (((Rect.unit (s := S2048x1024) ![0, 128 * j.val] S2048x128.size inbc).emb (ix2 r cc)) 1).val < 1024 := (((Rect.unit (s := S2048x1024) ![0, 128 * j.val] S2048x128.size inbc).emb (ix2 r cc)) 1).isLt; omega⟩ : Fin 8) = j :=
    Fin.ext (by show (128 * j.val + 1 * cc.val) / 128 = j.val; omega)
  have ec : (⟨(((Rect.unit (s := S2048x1024) ![0, 128 * j.val] S2048x128.size inbc).emb (ix2 r cc)) 1).val % 128, Nat.mod_lt _ (by decide)⟩ : Fin 128) = cc :=
    Fin.ext (by show (128 * j.val + 1 * cc.val) % 128 = cc.val; omega)
  rw [er, ej, ec]

/-- The reset value at any index is zero. -/
theorem pay4_apply (i : S256x1024.Idx) : k0_pay4 (F := Ideal) i = 0 := by
  unfold k0_pay4
  rw [shapeCast_self]
  exact Ideal.ofBits_zero_f32

/-- The scratch read back whole, at `(r, 128·j + cc)`: the tile's weight at `(r, j, cc)`. -/
theorem scratchFn_apply (x1 : Vec Ideal S2048x128 .i32) (x2 x3 : Vec Ideal S16x8x128 .bf16) (r : Fin 2048) (j : Fin 8) (cc : Fin 128) :
    scratchFn x1 x2 x3 ((Rect.unit (s := S2048x1024) ![0, 0] ![2048, 1024] inb_S2048x1024_S2048x1024_0_0).toLoadRect.idx (ix2 r (planeCol j cc)))
      = tileWeight x1 x2 x3 r j cc := by
  unfold scratchFn
  have hj := j.isLt
  have hcc := cc.isLt
  congr 1 <;> first
    | exact Fin.ext (by show 0 + 1 * r.val = r.val; omega)
    | exact Fin.ext (by show (0 + 1 * (j.val * 128 + cc.val)) / 128 = j.val; omega)
    | exact Fin.ext (by show (0 + 1 * (j.val * 128 + cc.val)) % 128 = cc.val; omega)

/-- The eight column pieces cover the scratch: index `(r, 128·j + cc)` lies in plane `j`'s piece. -/
theorem planes_cover (w0 w1 w2 w3 w4 w5 w6 w7 : S2048x128.Idx → Elt Ideal .bf16) (r : Fin 2048) (j : Fin 8) (cc : Fin 128) :
    ∃ p ∈ ([⟨Rect.unit (s := S2048x1024) ![0, 896] ![2048, 128] inb_S2048x1024_S2048x128_0_896, w7⟩,
      ⟨Rect.unit (s := S2048x1024) ![0, 768] S2048x128.size inb_S2048x1024_S2048x128_0_768, w6⟩,
      ⟨Rect.unit (s := S2048x1024) ![0, 640] S2048x128.size inb_S2048x1024_S2048x128_0_640, w5⟩,
      ⟨Rect.unit (s := S2048x1024) ![0, 512] S2048x128.size inb_S2048x1024_S2048x128_0_512, w4⟩,
      ⟨Rect.unit (s := S2048x1024) ![0, 384] S2048x128.size inb_S2048x1024_S2048x128_0_384, w3⟩,
      ⟨Rect.unit (s := S2048x1024) ![0, 256] S2048x128.size inb_S2048x1024_S2048x128_0_256, w2⟩,
      ⟨Rect.unit (s := S2048x1024) ![0, 128] S2048x128.size inb_S2048x1024_S2048x128_0_128, w1⟩,
      ⟨Rect.unit (s := S2048x1024) ![0, 0] S2048x128.size inb_S2048x1024_S2048x128_0_0, w0⟩] : List (View.Piece (Elt Ideal) S2048x1024 .bf16)),
      (Rect.unit (s := S2048x1024) ![0, 0] ![2048, 1024] inb_S2048x1024_S2048x1024_0_0).toLoadRect.idx (ix2 r (planeCol j cc)) ∈ p.1.set := by
  have hr := r.isLt
  have hcc := cc.isLt
  have e0 : (((Rect.unit (s := S2048x1024) ![0, 0] ![2048, 1024] inb_S2048x1024_S2048x1024_0_0).toLoadRect.idx (ix2 r (planeCol j cc))) 0).val = r.val := by
    show 0 + 1 * r.val = r.val; omega
  have e1 : (((Rect.unit (s := S2048x1024) ![0, 0] ![2048, 1024] inb_S2048x1024_S2048x1024_0_0).toLoadRect.idx (ix2 r (planeCol j cc))) 1).val = j.val * 128 + cc.val := by
    show 0 + 1 * (j.val * 128 + cc.val) = j.val * 128 + cc.val; omega
  generalize (Rect.unit (s := S2048x1024) ![0, 0] ![2048, 1024] inb_S2048x1024_S2048x1024_0_0).toLoadRect.idx (ix2 r (planeCol j cc)) = y at e0 e1
  fin_cases j
  · refine ⟨⟨Rect.unit (s := S2048x1024) ![0, 0] S2048x128.size inb_S2048x1024_S2048x128_0_0, w0⟩, by simp only [List.mem_cons, true_or, or_true], ?_⟩
    rw [Rect.mem_set_unit]
    intro a
    match a with
    | ⟨0, _⟩ => show 0 ≤ (y 0).val ∧ (y 0).val < 0 + 2048; rw [e0]; omega
    | ⟨1, _⟩ => show 0 ≤ (y 1).val ∧ (y 1).val < 0 + 128; rw [e1]; simp only []; omega
  · refine ⟨⟨Rect.unit (s := S2048x1024) ![0, 128] S2048x128.size inb_S2048x1024_S2048x128_0_128, w1⟩, by simp only [List.mem_cons, true_or, or_true], ?_⟩
    rw [Rect.mem_set_unit]
    intro a
    match a with
    | ⟨0, _⟩ => show 0 ≤ (y 0).val ∧ (y 0).val < 0 + 2048; rw [e0]; omega
    | ⟨1, _⟩ => show 128 ≤ (y 1).val ∧ (y 1).val < 128 + 128; rw [e1]; simp only []; omega
  · refine ⟨⟨Rect.unit (s := S2048x1024) ![0, 256] S2048x128.size inb_S2048x1024_S2048x128_0_256, w2⟩, by simp only [List.mem_cons, true_or, or_true], ?_⟩
    rw [Rect.mem_set_unit]
    intro a
    match a with
    | ⟨0, _⟩ => show 0 ≤ (y 0).val ∧ (y 0).val < 0 + 2048; rw [e0]; omega
    | ⟨1, _⟩ => show 256 ≤ (y 1).val ∧ (y 1).val < 256 + 128; rw [e1]; simp only []; omega
  · refine ⟨⟨Rect.unit (s := S2048x1024) ![0, 384] S2048x128.size inb_S2048x1024_S2048x128_0_384, w3⟩, by simp only [List.mem_cons, true_or, or_true], ?_⟩
    rw [Rect.mem_set_unit]
    intro a
    match a with
    | ⟨0, _⟩ => show 0 ≤ (y 0).val ∧ (y 0).val < 0 + 2048; rw [e0]; omega
    | ⟨1, _⟩ => show 384 ≤ (y 1).val ∧ (y 1).val < 384 + 128; rw [e1]; simp only []; omega
  · refine ⟨⟨Rect.unit (s := S2048x1024) ![0, 512] S2048x128.size inb_S2048x1024_S2048x128_0_512, w4⟩, by simp only [List.mem_cons, true_or, or_true], ?_⟩
    rw [Rect.mem_set_unit]
    intro a
    match a with
    | ⟨0, _⟩ => show 0 ≤ (y 0).val ∧ (y 0).val < 0 + 2048; rw [e0]; omega
    | ⟨1, _⟩ => show 512 ≤ (y 1).val ∧ (y 1).val < 512 + 128; rw [e1]; simp only []; omega
  · refine ⟨⟨Rect.unit (s := S2048x1024) ![0, 640] S2048x128.size inb_S2048x1024_S2048x128_0_640, w5⟩, by simp only [List.mem_cons, true_or, or_true], ?_⟩
    rw [Rect.mem_set_unit]
    intro a
    match a with
    | ⟨0, _⟩ => show 0 ≤ (y 0).val ∧ (y 0).val < 0 + 2048; rw [e0]; omega
    | ⟨1, _⟩ => show 640 ≤ (y 1).val ∧ (y 1).val < 640 + 128; rw [e1]; simp only []; omega
  · refine ⟨⟨Rect.unit (s := S2048x1024) ![0, 768] S2048x128.size inb_S2048x1024_S2048x128_0_768, w6⟩, by simp only [List.mem_cons, true_or, or_true], ?_⟩
    rw [Rect.mem_set_unit]
    intro a
    match a with
    | ⟨0, _⟩ => show 0 ≤ (y 0).val ∧ (y 0).val < 0 + 2048; rw [e0]; omega
    | ⟨1, _⟩ => show 768 ≤ (y 1).val ∧ (y 1).val < 768 + 128; rw [e1]; simp only []; omega
  · refine ⟨⟨Rect.unit (s := S2048x1024) ![0, 896] ![2048, 128] inb_S2048x1024_S2048x128_0_896, w7⟩, by simp only [List.mem_cons, true_or, or_true], ?_⟩
    rw [Rect.mem_set_unit]
    intro a
    match a with
    | ⟨0, _⟩ => show 0 ≤ (y 0).val ∧ (y 0).val < 0 + 2048; rw [e0]; omega
    | ⟨1, _⟩ => show 896 ≤ (y 1).val ∧ (y 1).val < 896 + 128; rw [e1]; simp only []; omega

/-- The eight stores into the scratch, last first: plane `j`'s dequantised tile into columns `128·j …`. -/
abbrev scratchPieces (arg3 : Memref sig .tc .vmem S2048x128 .i32) (harg3 : arg3.IsWhole) (arg4 : Memref sig .tc .vmem S16x8x128 .bf16) (harg4 : arg4.IsWhole) (arg5 : Memref sig .tc .vmem S16x8x128 .bf16) (harg5 : arg5.IsWhole) (x1 : Vec Ideal S2048x128 .i32) (x2 x3 : Vec Ideal S16x8x128 .bf16) : List (View.Piece (Elt Ideal) S2048x1024 .bf16) :=
  [⟨Rect.unit (s := S2048x1024) ![0, 896] ![2048, 128] inb_S2048x1024_S2048x128_0_896, k0_pay1 (k0_pay17 (k0_pay6 (View.readAt (Elt Ideal) arg3.view (Rect.unit (s := S2048x128) ![0, 0] S2048x128.size inb_S2048x128_S2048x128_0_0).toLoadRect (harg3.unread x1)))) (15#32) (View.readAt (Elt Ideal) arg4.view (Rect.unit (s := S16x8x128) ![0, 7, 0] S16x1x128.size inb_S16x8x128_S16x1x128_0_7_0).toLoadRect (harg4.unread x2)) (View.readAt (Elt Ideal) arg5.view (Rect.unit (s := S16x8x128) ![0, 7, 0] S16x1x128.size inb_S16x8x128_S16x1x128_0_7_0).toLoadRect (harg5.unread x3))⟩,
    ⟨Rect.unit (s := S2048x1024) ![0, 768] S2048x128.size inb_S2048x1024_S2048x128_0_768, k0_pay16 (k0_pay6 (View.readAt (Elt Ideal) arg3.view (Rect.unit (s := S2048x128) ![0, 0] S2048x128.size inb_S2048x128_S2048x128_0_0).toLoadRect (harg3.unread x1))) (View.readAt (Elt Ideal) arg4.view (Rect.unit (s := S16x8x128) ![0, 6, 0] S16x1x128.size inb_S16x8x128_S16x1x128_0_6_0).toLoadRect (harg4.unread x2)) (View.readAt (Elt Ideal) arg5.view (Rect.unit (s := S16x8x128) ![0, 6, 0] S16x1x128.size inb_S16x8x128_S16x1x128_0_6_0).toLoadRect (harg5.unread x3))⟩,
    ⟨Rect.unit (s := S2048x1024) ![0, 640] S2048x128.size inb_S2048x1024_S2048x128_0_640, k0_pay15 (k0_pay14 (k0_pay6 (View.readAt (Elt Ideal) arg3.view (Rect.unit (s := S2048x128) ![0, 0] S2048x128.size inb_S2048x128_S2048x128_0_0).toLoadRect (harg3.unread x1)))) (View.readAt (Elt Ideal) arg4.view (Rect.unit (s := S16x8x128) ![0, 5, 0] S16x1x128.size inb_S16x8x128_S16x1x128_0_5_0).toLoadRect (harg4.unread x2)) (View.readAt (Elt Ideal) arg5.view (Rect.unit (s := S16x8x128) ![0, 5, 0] S16x1x128.size inb_S16x8x128_S16x1x128_0_5_0).toLoadRect (harg5.unread x3))⟩,
    ⟨Rect.unit (s := S2048x1024) ![0, 512] S2048x128.size inb_S2048x1024_S2048x128_0_512, k0_pay13 (k0_pay6 (View.readAt (Elt Ideal) arg3.view (Rect.unit (s := S2048x128) ![0, 0] S2048x128.size inb_S2048x128_S2048x128_0_0).toLoadRect (harg3.unread x1))) (View.readAt (Elt Ideal) arg4.view (Rect.unit (s := S16x8x128) ![0, 4, 0] S16x1x128.size inb_S16x8x128_S16x1x128_0_4_0).toLoadRect (harg4.unread x2)) (View.readAt (Elt Ideal) arg5.view (Rect.unit (s := S16x8x128) ![0, 4, 0] S16x1x128.size inb_S16x8x128_S16x1x128_0_4_0).toLoadRect (harg5.unread x3))⟩,
    ⟨Rect.unit (s := S2048x1024) ![0, 384] S2048x128.size inb_S2048x1024_S2048x128_0_384, k0_pay12 (k0_pay11 (k0_pay6 (View.readAt (Elt Ideal) arg3.view (Rect.unit (s := S2048x128) ![0, 0] S2048x128.size inb_S2048x128_S2048x128_0_0).toLoadRect (harg3.unread x1)))) (View.readAt (Elt Ideal) arg4.view (Rect.unit (s := S16x8x128) ![0, 3, 0] S16x1x128.size inb_S16x8x128_S16x1x128_0_3_0).toLoadRect (harg4.unread x2)) (View.readAt (Elt Ideal) arg5.view (Rect.unit (s := S16x8x128) ![0, 3, 0] S16x1x128.size inb_S16x8x128_S16x1x128_0_3_0).toLoadRect (harg5.unread x3))⟩,
    ⟨Rect.unit (s := S2048x1024) ![0, 256] S2048x128.size inb_S2048x1024_S2048x128_0_256, k0_pay10 (k0_pay6 (View.readAt (Elt Ideal) arg3.view (Rect.unit (s := S2048x128) ![0, 0] S2048x128.size inb_S2048x128_S2048x128_0_0).toLoadRect (harg3.unread x1))) (View.readAt (Elt Ideal) arg4.view (Rect.unit (s := S16x8x128) ![0, 2, 0] S16x1x128.size inb_S16x8x128_S16x1x128_0_2_0).toLoadRect (harg4.unread x2)) (View.readAt (Elt Ideal) arg5.view (Rect.unit (s := S16x8x128) ![0, 2, 0] S16x1x128.size inb_S16x8x128_S16x1x128_0_2_0).toLoadRect (harg5.unread x3))⟩,
    ⟨Rect.unit (s := S2048x1024) ![0, 128] S2048x128.size inb_S2048x1024_S2048x128_0_128, k0_pay9 (k0_pay8 (View.readAt (Elt Ideal) arg3.view (Rect.unit (s := S2048x128) ![0, 0] S2048x128.size inb_S2048x128_S2048x128_0_0).toLoadRect (harg3.unread x1))) (View.readAt (Elt Ideal) arg4.view (Rect.unit (s := S16x8x128) ![0, 1, 0] S16x1x128.size inb_S16x8x128_S16x1x128_0_1_0).toLoadRect (harg4.unread x2)) (View.readAt (Elt Ideal) arg5.view (Rect.unit (s := S16x8x128) ![0, 1, 0] S16x1x128.size inb_S16x8x128_S16x1x128_0_1_0).toLoadRect (harg5.unread x3))⟩,
    ⟨Rect.unit (s := S2048x1024) ![0, 0] S2048x128.size inb_S2048x1024_S2048x128_0_0, k0_pay7 (View.readAt (Elt Ideal) arg3.view (Rect.unit (s := S2048x128) ![0, 0] S2048x128.size inb_S2048x128_S2048x128_0_0).toLoadRect (harg3.unread x1)) (View.readAt (Elt Ideal) arg4.view (Rect.unit (s := S16x8x128) ![0, 0, 0] S16x1x128.size inb_S16x8x128_S16x1x128_0_0_0).toLoadRect (harg4.unread x2)) (View.readAt (Elt Ideal) arg5.view (Rect.unit (s := S16x8x128) ![0, 0, 0] S16x1x128.size inb_S16x8x128_S16x1x128_0_0_0).toLoadRect (harg5.unread x3))⟩]

/-- The scratch read back whole after the eight stores, at `(r, 128·j + cc)`: the tile's weight at `(r, j, cc)`. -/
theorem scratch_read (arg10 : Memref sig .tc .vmem S2048x1024 .bf16) (arg3 : Memref sig .tc .vmem S2048x128 .i32) (harg3 : arg3.IsWhole) (arg4 : Memref sig .tc .vmem S16x8x128 .bf16) (harg4 : arg4.IsWhole) (arg5 : Memref sig .tc .vmem S16x8x128 .bf16) (harg5 : arg5.IsWhole) (x1 : Vec Ideal S2048x128 .i32) (x2 x3 : Vec Ideal S16x8x128 .bf16) (r : Fin 2048) (j : Fin 8) (cc : Fin 128) :
    arg10.view.readCov (scratchPieces arg3 harg3 arg4 harg4 arg5 harg5 x1 x2 x3) (Rect.unit (s := S2048x1024) ![0, 0] ![2048, 1024] inb_S2048x1024_S2048x1024_0_0).toLoadRect (ix2 r (planeCol j cc))
      = tileWeight x1 x2 x3 r j cc := by
  rw [View.readCov_eq_canon']
  refine (View.canon_apply_of_pieces (scratchFn x1 x2 x3) _ ?_ _ (planes_cover _ _ _ _ _ _ _ _ r j cc)).trans
    (scratchFn_apply x1 x2 x3 r j cc)
  intro p hp x
  simp only [List.mem_cons, List.mem_nil_iff, or_false] at hp
  rcases hp with rfl | rfl | rfl | rfl | rfl | rfl | rfl | rfl
  · exact plane_piece arg3 harg3 arg4 harg4 arg5 harg5 x1 x2 x3 ⟨7, by decide⟩ 28#32 rfl ![0, 7, 0] rfl inb_S16x8x128_S16x1x128_0_7_0 ![0, 896] rfl inb_S2048x1024_S2048x128_0_896 x
  · exact plane_piece arg3 harg3 arg4 harg4 arg5 harg5 x1 x2 x3 ⟨6, by decide⟩ 24#32 rfl ![0, 6, 0] rfl inb_S16x8x128_S16x1x128_0_6_0 ![0, 768] rfl inb_S2048x1024_S2048x128_0_768 x
  · exact plane_piece arg3 harg3 arg4 harg4 arg5 harg5 x1 x2 x3 ⟨5, by decide⟩ 20#32 rfl ![0, 5, 0] rfl inb_S16x8x128_S16x1x128_0_5_0 ![0, 640] rfl inb_S2048x1024_S2048x128_0_640 x
  · exact plane_piece arg3 harg3 arg4 harg4 arg5 harg5 x1 x2 x3 ⟨4, by decide⟩ 16#32 rfl ![0, 4, 0] rfl inb_S16x8x128_S16x1x128_0_4_0 ![0, 512] rfl inb_S2048x1024_S2048x128_0_512 x
  · exact plane_piece arg3 harg3 arg4 harg4 arg5 harg5 x1 x2 x3 ⟨3, by decide⟩ 12#32 rfl ![0, 3, 0] rfl inb_S16x8x128_S16x1x128_0_3_0 ![0, 384] rfl inb_S2048x1024_S2048x128_0_384 x
  · exact plane_piece arg3 harg3 arg4 harg4 arg5 harg5 x1 x2 x3 ⟨2, by decide⟩ 8#32 rfl ![0, 2, 0] rfl inb_S16x8x128_S16x1x128_0_2_0 ![0, 256] rfl inb_S2048x1024_S2048x128_0_256 x
  · exact plane_piece arg3 harg3 arg4 harg4 arg5 harg5 x1 x2 x3 ⟨1, by decide⟩ 4#32 rfl ![0, 1, 0] rfl inb_S16x8x128_S16x1x128_0_1_0 ![0, 128] rfl inb_S2048x1024_S2048x128_0_128 x
  · exact plane_piece arg3 harg3 arg4 harg4 arg5 harg5 x1 x2 x3 ⟨0, by decide⟩ 0#32 rfl ![0, 0, 0] rfl inb_S16x8x128_S16x1x128_0_0_0 ![0, 0] rfl inb_S2048x1024_S2048x128_0_0 x

/-- The loaded half of `x` against the scratch's column `128·j + cc`: the half's dot product. -/
theorem half_sum (arg2 : Memref sig .tc .vmem S256x4096 .bf16) (harg2 : arg2.IsWhole) (arg10 : Memref sig .tc .vmem S2048x1024 .bf16) (arg3 : Memref sig .tc .vmem S2048x128 .i32) (harg3 : arg3.IsWhole) (arg4 : Memref sig .tc .vmem S16x8x128 .bf16) (harg4 : arg4.IsWhole) (arg5 : Memref sig .tc .vmem S16x8x128 .bf16) (harg5 : arg5.IsWhole)
    (x0 : Vec Ideal S256x4096 .bf16) (x1 : Vec Ideal S2048x128 .i32) (x2 x3 : Vec Ideal S16x8x128 .bf16) (o : Fin 2 → Nat) (off : Nat) (ho : o = ![0, off]) (hoff : off + 2048 ≤ 4096)
    (inb : ∀ b, o b + S256x2048.size b ≤ S256x4096.size b) (t : Fin 256) (j : Fin 8) (cc : Fin 128) :
    ∑ r : Fin 2048,
        k0_pay5 (F := Ideal) (View.readAt (Elt Ideal) arg2.view (Rect.unit (s := S256x4096) o S256x2048.size inb).toLoadRect (harg2.unread x0)) (ix2 t r)
          * arg10.view.readCov (scratchPieces arg3 harg3 arg4 harg4 arg5 harg5 x1 x2 x3) (Rect.unit (s := S2048x1024) ![0, 0] ![2048, 1024] inb_S2048x1024_S2048x1024_0_0).toLoadRect (ix2 r (planeCol j cc))
      = halfDot x0 off hoff x1 x2 x3 t j cc := by
  unfold halfDot
  refine Finset.sum_congr rfl fun r _ => ?_
  congr 1
  · unfold k0_pay5
    rw [shapeCast_self]
    exact half_load arg2 harg2 x0 o off ho hoff inb t r
  · exact scratch_read arg10 arg3 harg3 arg4 harg4 arg5 harg5 x1 x2 x3 r j cc

/-- A whole 256 × 1024 buffer loaded whole, at an index: its contents there. -/
theorem acc_load (a : Memref sig .tc .vmem S256x1024 .f32) (ha : a.IsWhole) (x : Vec Ideal S256x1024 .f32) (i : S256x1024.Idx) :
    View.readAt (Elt Ideal) a.view (Rect.unit (s := S256x1024) ![0, 0] ![256, 1024] inb_S256x1024_S256x1024_0_0).toLoadRect (ha.unread x) i = x i := by
  rw [View.readAt_eq_ld, ha.read_unread]
  exact congrFun (View.ld_unit_zero (S := S256x1024) hz2 _ x) i

/-! ## The three case values -/

/-- First half: the accumulator is reset, so it ends at the half's dot product. -/
theorem acc_first (c : Dev nD) (i : grid0.Coords) (arg2 : Memref sig .tc .vmem S256x4096 .bf16) (harg2 : arg2.IsWhole) (arg3 : Memref sig .tc .vmem S2048x128 .i32) (harg3 : arg3.IsWhole) (arg4 : Memref sig .tc .vmem S16x8x128 .bf16) (harg4 : arg4.IsWhole) (arg5 : Memref sig .tc .vmem S16x8x128 .bf16) (harg5 : arg5.IsWhole) (arg6 : Memref sig .tc .vmem S256x16 .f32) (harg6 : arg6.IsWhole) (arg7 : Memref sig .tc .vmem S8x128x16 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S2048x1024 .bf16) (harg10 : arg10.IsWhole) (hc0 : cond0_0 i) (hc1 : ¬cond0_1 i) (x0 : Vec Ideal S256x4096 .bf16) (x1 : Vec Ideal S2048x128 .i32) (x2 : Vec Ideal S16x8x128 .bf16) (x3 : Vec Ideal S16x8x128 .bf16) (x4 : Vec Ideal S256x16 .f32) (x5 : Vec Ideal S8x128x16 .bf16)
    (off : Nat) (hoff : off + 2048 ≤ 4096) (hi : k0_off1 i = ![0, off]) (t : Fin 256) (j : Fin 8) (cc : Fin 128) :
    sout0_A_0 (F := Ideal) c i arg2 harg2 arg3 harg3 arg4 harg4 arg5 harg5 arg6 harg6 arg7 harg7 arg8 harg8 arg9 harg9 arg10 harg10 hc0 hc1 x0 x1 x2 x3 x4 x5 (ix2 t (planeCol j cc)) = halfDot x0 off hoff x1 x2 x3 t j cc := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_run_names
  rw [View.canon_cons_unit_zero (S := S256x1024) hz2]
  rw [pay2_apply, View.readCov_unit_zero (S := S256x1024) _ hz2, pay4_apply, zero_add]
  exact half_sum arg2 harg2 arg10 arg3 harg3 arg4 harg4 arg5 harg5 x0 x1 x2 x3 (k0_off1 i) off hi hoff (k0_off1_inb i) t j cc

/-- Second half: the accumulator gains the half's dot product. -/
theorem acc_second (c : Dev nD) (i : grid0.Coords) (arg2 : Memref sig .tc .vmem S256x4096 .bf16) (harg2 : arg2.IsWhole) (arg3 : Memref sig .tc .vmem S2048x128 .i32) (harg3 : arg3.IsWhole) (arg4 : Memref sig .tc .vmem S16x8x128 .bf16) (harg4 : arg4.IsWhole) (arg5 : Memref sig .tc .vmem S16x8x128 .bf16) (harg5 : arg5.IsWhole) (arg6 : Memref sig .tc .vmem S256x16 .f32) (harg6 : arg6.IsWhole) (arg7 : Memref sig .tc .vmem S8x128x16 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S2048x1024 .bf16) (harg10 : arg10.IsWhole) (hc0 : ¬cond0_0 i) (hc1 : cond0_1 i) (x0 : Vec Ideal S256x4096 .bf16) (x1 : Vec Ideal S2048x128 .i32) (x2 : Vec Ideal S16x8x128 .bf16) (x3 : Vec Ideal S16x8x128 .bf16) (x4 : Vec Ideal S256x16 .f32) (x5 : Vec Ideal S8x128x16 .bf16) (xs0 : Vec Ideal S256x1024 .f32)
    (off : Nat) (hoff : off + 2048 ≤ 4096) (hi : k0_off1 i = ![0, off]) (t : Fin 256) (j : Fin 8) (cc : Fin 128) :
    sout0_B_0 (F := Ideal) c i arg2 harg2 arg3 harg3 arg4 harg4 arg5 harg5 arg6 harg6 arg7 harg7 arg8 harg8 arg9 harg9 arg10 harg10 hc0 hc1 x0 x1 x2 x3 x4 x5 xs0 (ix2 t (planeCol j cc))
      = xs0 (ix2 t (planeCol j cc)) + halfDot x0 off hoff x1 x2 x3 t j cc := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_run_names
  rw [View.canon_unit_zero (S := S256x1024) hz2]
  rw [pay2_apply, acc_load]
  congr 1
  exact half_sum arg2 harg2 arg10 arg3 harg3 arg4 harg4 arg5 harg5 x0 x1 x2 x3 (k0_off1 i) off hi hoff (k0_off1_inb i) t j cc

/-- Second half: the output block, interleaved, with twice the low-rank term added. -/
theorem out_second (c : Dev nD) (i : grid0.Coords) (arg2 : Memref sig .tc .vmem S256x4096 .bf16) (harg2 : arg2.IsWhole) (arg3 : Memref sig .tc .vmem S2048x128 .i32) (harg3 : arg3.IsWhole) (arg4 : Memref sig .tc .vmem S16x8x128 .bf16) (harg4 : arg4.IsWhole) (arg5 : Memref sig .tc .vmem S16x8x128 .bf16) (harg5 : arg5.IsWhole) (arg6 : Memref sig .tc .vmem S256x16 .f32) (harg6 : arg6.IsWhole) (arg7 : Memref sig .tc .vmem S8x128x16 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S2048x1024 .bf16) (harg10 : arg10.IsWhole) (hc0 : ¬cond0_0 i) (hc1 : cond0_1 i) (x0 : Vec Ideal S256x4096 .bf16) (x1 : Vec Ideal S2048x128 .i32) (x2 : Vec Ideal S16x8x128 .bf16) (x3 : Vec Ideal S16x8x128 .bf16) (x4 : Vec Ideal S256x16 .f32) (x5 : Vec Ideal S8x128x16 .bf16) (xs0 : Vec Ideal S256x1024 .f32)
    (off : Nat) (hoff : off + 2048 ≤ 4096) (hi : k0_off1 i = ![0, off]) (t : Fin 256) (j : Fin 8) (cc : Fin 128) :
    out0_B_6 (F := Ideal) c i arg2 harg2 arg3 harg3 arg4 harg4 arg5 harg5 arg6 harg6 arg7 harg7 arg8 harg8 arg9 harg9 arg10 harg10 hc0 hc1 x0 x1 x2 x3 x4 x5 xs0 (ix2 t (outCol j cc))
      = (xs0 (ix2 t (planeCol j cc)) + halfDot x0 off hoff x1 x2 x3 t j cc)
        + Ideal.ofBits .f32 0x40000000#32 * lowRankOut x4 x5 t j cc := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_run_names
  rw [View.canon_unit_zero (S := S256x1024) hz2]
  rw [pay3_apply, View.readCov_unit_zero (S := S256x1024) _ hz2, pay2_apply, acc_load]
  congr 1
  · congr 1
    exact half_sum arg2 harg2 arg10 arg3 harg3 arg4 harg4 arg5 harg5 x0 x1 x2 x3 (k0_off1 i) off hi hoff (k0_off1_inb i) t j cc
  · congr 1
    unfold lowRankOut
    refine Finset.sum_congr rfl fun r _ => ?_
    simp only [View.readAt_eq_ld, harg6.read_unread, harg7.read_unread]
    exact congrArg₂ (· * ·) (congrFun (View.ld_unit_zero (S := S256x16) hz2 _ x4) _)
      (congrFun (View.ld_unit_zero (S := S8x128x16) hz3 _ x5) _)

end Cert.KernelIdeal.Layer

end
-- ==== Proof.HostIn.lean ====
/-
  What the kernel's region finds in its six operand arrays, in terms of the program's arguments.

  Before the region the program pads the packed weights with 32 zero columns; unpacks the zero points (nibble `j` of
  the word at packed column `C` becomes column `8·C + j`), pads them and the scales with 256 zero columns, and lays
  both out plane-major: entry `(g, j, C)` is column `8·C + j` of group `g`; lays the rows of `B` out the same way,
  entry `(j, C, r)` is row `8·C + j`; and computes the first low-rank stage `x · Aᵀ`. Format changes are the identity
  on the extended reals. Only packed columns `C < 1376` matter for the result (the rest is cut off at the end), and
  there no padding is read.
-/
import proofs.«427479_j4337916969000_3_alg».proof.Proof.Gen.KernelIdeal.Frame
import proofs.«427479_j4337916969000_3_alg».proof.Proof.TileShare
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost
import Idealize.ShloMosaic.Lib.IdealHost
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.Dequant

variable (m : (ℓ : Loc nD τ sig) → Buf (Elt Ideal) ℓ)

/-- The six arrays as the region finds them, at their literal types. -/
abbrev xA (c : Dev nD) : FVec Ideal S256x4096 .bf16 := V m c main_v22
abbrev qwA (c : Dev nD) : IVec S4096x1408 32 := V m c main_v0
abbrev zA (c : Dev nD) : FVec Ideal S32x8x1408 .bf16 := V m c main_v25
abbrev sA (c : Dev nD) : FVec Ideal S32x8x1408 .bf16 := V m c main_v24
abbrev lpA (c : Dev nD) : FVec Ideal S256x16 .f32 := V m c main_v28
abbrev lbA (c : Dev nD) : FVec Ideal S8x1408x16 .bf16 := V m c main_v26

/-- The six arguments, at their literal types. -/
abbrev xArg (c : Dev nD) : FVec Ideal S256x4096 .f32 := m ((c : Thread nD τ).loc main_arg0)
abbrev qwArg (c : Dev nD) : IVec S4096x1376 32 := m ((c : Thread nD τ).loc main_arg1)
abbrev qzArg (c : Dev nD) : IVec S32x1376 32 := m ((c : Thread nD τ).loc main_arg2)
abbrev scArg (c : Dev nD) : FVec Ideal S32x11008 .f32 := m ((c : Thread nD τ).loc main_arg3)
abbrev laArg (c : Dev nD) : FVec Ideal S16x4096 .f32 := m ((c : Thread nD τ).loc main_arg4)
abbrev lbArg (c : Dev nD) : FVec Ideal S11008x16 .f32 := m ((c : Thread nD τ).loc main_arg5)

namespace HostIn

/-! ### The layout operations of the program's host part, read at an index -/

section Layout
variable {α : Type}

/-- The packed weights padded with 32 columns: inside the unpadded columns, the operand. -/
theorem pad_qw_apply (x : S4096x1376.Idx → α) (v : S_.Idx → α) (k : Fin 4096) (C : Fin 1408) (hC : C.val < 1376) :
    pad S4096x1408 ![0, 0] ![0, 32] ![0, 0] x v pads_S4096x1376_S4096x1408_000_0320 h_S_ (ix2 k C)
      = x (ix2 k ⟨C.val, hC⟩) :=
  pad_apply_of_inside _ _ _ x v pads_S4096x1376_S4096x1408_000_0320 h_S_ (ix2 k C) (ix2 k ⟨C.val, hC⟩) (fun a => match a with
    | ⟨0, _⟩ => by show k.val = 0 + k.val * (0 + 1); omega
    | ⟨1, _⟩ => by show C.val = 0 + C.val * (0 + 1); omega)

/-- A 32 × 11008 array padded with 256 columns: inside the unpadded columns, the operand. -/
theorem pad_cols_apply (x : S32x11008.Idx → α) (v : S_.Idx → α) (g : Fin 32) (o : Fin 11264) (ho : o.val < 11008) :
    pad S32x11264 ![0, 0] ![0, 256] ![0, 0] x v pads_S32x11008_S32x11264_000_02560 h_S_ (ix2 g o)
      = x (ix2 g ⟨o.val, ho⟩) :=
  pad_apply_of_inside _ _ _ x v pads_S32x11008_S32x11264_000_02560 h_S_ (ix2 g o) (ix2 g ⟨o.val, ho⟩) (fun a => match a with
    | ⟨0, _⟩ => by show g.val = 0 + g.val * (0 + 1); omega
    | ⟨1, _⟩ => by show o.val = 0 + o.val * (0 + 1); omega)

/-- An 11008 × 16 array padded with 256 rows: inside the unpadded rows, the operand. -/
theorem pad_rows_apply (x : S11008x16.Idx → α) (v : S_.Idx → α) (o : Fin 11264) (r : Fin 16) (ho : o.val < 11008) :
    pad S11264x16 ![0, 0] ![256, 0] ![0, 0] x v pads_S11008x16_S11264x16_02560_000 h_S_ (ix2 o r)
      = x (ix2 ⟨o.val, ho⟩ r) :=
  pad_apply_of_inside _ _ _ x v pads_S11008x16_S11264x16_02560_000 h_S_ (ix2 o r) (ix2 ⟨o.val, ho⟩ r) (fun a => match a with
    | ⟨0, _⟩ => by show o.val = 0 + o.val * (0 + 1); omega
    | ⟨1, _⟩ => by show r.val = 0 + r.val * (0 + 1); omega)

/-- The plane-major layout of 11264 columns: entry `(g, j, C)` is column `8·C + j` of row `g`. -/
theorem planes_apply (y : S32x11264.Idx → α) (g : Fin 32) (j : Fin 8) (C : Fin 1408) :
    transpose S32x8x1408 [0, 2, 1] (shapeCast S32x1408x8 y shapeCasts_S32x11264_S32x1408x8)
        transposes_S32x1408x8_S32x8x1408_0_2_1 (ix3 g j C)
      = y (ix2 g ⟨C.val * 8 + j.val, by have := j.isLt; have := C.isLt; omega⟩) := by
  rw [transpose_apply [0, 2, 1] _ transposes_S32x1408x8_S32x8x1408_0_2_1 (ix3 g j C) (ix3 g C j)
    (fun b => match b with | ⟨0, _⟩ => rfl | ⟨1, _⟩ => rfl | ⟨2, _⟩ => rfl)]
  exact shapeCast_apply y shapeCasts_S32x11264_S32x1408x8 (ix3 g C j) _
    (by rw [Shape.rowMajor_val_two, Shape.rowMajor_val_three]
        show g.val * 11264 + (C.val * 8 + j.val) = (g.val * 1408 + C.val) * 8 + j.val
        omega)

/-- The plane-major layout of 11264 rows: entry `(j, C, r)` is row `8·C + j`, column `r`. -/
theorem rowPlanes_apply (y : S11264x16.Idx → α) (j : Fin 8) (C : Fin 1408) (r : Fin 16) :
    transpose S8x1408x16 [1, 0, 2] (shapeCast S1408x8x16 y shapeCasts_S11264x16_S1408x8x16)
        transposes_S1408x8x16_S8x1408x16_1_0_2 (ix3 j C r)
      = y (ix2 ⟨C.val * 8 + j.val, by have := j.isLt; have := C.isLt; omega⟩ r) := by
  rw [transpose_apply [1, 0, 2] _ transposes_S1408x8x16_S8x1408x16_1_0_2 (ix3 j C r) (ix3 C j r)
    (fun b => match b with | ⟨0, _⟩ => rfl | ⟨1, _⟩ => rfl | ⟨2, _⟩ => rfl)]
  exact shapeCast_apply y shapeCasts_S11264x16_S1408x8x16 (ix3 C j r) _
    (by rw [Shape.rowMajor_val_two, Shape.rowMajor_val_three]
        show (C.val * 8 + j.val) * 16 + r.val = (C.val * 8 + j.val) * 16 + r.val
        rfl)

end Layout

/-! ### The zero points unpacked -/

/-- The eight nibbles of every packed zero-point word, as words: column `8·C + j` of group `g` is nibble `j` of the
    word at `(g, C)`, the word shifted right by `iota · 4` bits and masked with 15. -/
def unpacked (w : IVec S32x1376 32) : IVec S32x11008 32 :=
  shapeCast S32x11008
    (andi
      (Host.shrsi
        (broadcastInDim S32x1376x8 ![0, 1, 2] bcast_S32x1376x1_S32x1376x8_0_1_2
          (broadcastInDim S32x1376x1 ![0, 1] bcast_S32x1376_S32x1376x1_0_1 w))
        (broadcastInDim S32x1376x8 ![0, 1, 2] bcast_S1x1x8_S32x1376x8_0_1_2
          (broadcastInDim S1x1x8 ![2] bcast_S8_S1x1x8_2
            (muli (iotaInDim S8 32 0) (broadcastInDim S8 ![] bcast_S_S8 (constantI S_ 32 4#32))))))
      (broadcastInDim S32x1376x8 ![] bcast_S_S32x1376x8 (constantI S_ 32 15#32)))
    shapeCasts_S32x1376x8_S32x11008

/-- The packed word broadcast along the nibble axis reads the word. -/
theorem bcast_word_apply (w : IVec S32x1376 32) (g : Fin 32) (C : Fin 1376) (j : Fin 8) :
    broadcastInDim S32x1376x8 ![0, 1, 2] bcast_S32x1376x1_S32x1376x8_0_1_2
        (broadcastInDim S32x1376x1 ![0, 1] bcast_S32x1376_S32x1376x1_0_1 w) (ix3 g C j) = w (ix2 g C) :=
  (broadcastInDim_apply _ bcast_S32x1376x1_S32x1376x8_0_1_2 _ (ix3 g C j) (ix3 g C (0 : Fin 1)) (fun a => match a with
    | ⟨0, _⟩ => by show g.val = if (32 : Nat) = 1 then 0 else g.val; rw [if_neg (by decide)]
    | ⟨1, _⟩ => by show C.val = if (1376 : Nat) = 1 then 0 else C.val; rw [if_neg (by decide)]
    | ⟨2, _⟩ => by show 0 = if (1 : Nat) = 1 then 0 else j.val; rw [if_pos rfl])).trans
  (broadcastInDim_apply _ bcast_S32x1376_S32x1376x1_0_1 w (ix3 g C (0 : Fin 1)) (ix2 g C) (fun a => match a with
    | ⟨0, _⟩ => by show g.val = if (32 : Nat) = 1 then 0 else g.val; rw [if_neg (by decide)]
    | ⟨1, _⟩ => by show C.val = if (1376 : Nat) = 1 then 0 else C.val; rw [if_neg (by decide)]))

/-- The shift amounts broadcast along groups and packed columns read `j · 4` as words. -/
theorem bcast_shift_apply (g : Fin 32) (C : Fin 1376) (j : Fin 8) :
    broadcastInDim S32x1376x8 ![0, 1, 2] bcast_S1x1x8_S32x1376x8_0_1_2
        (broadcastInDim S1x1x8 ![2] bcast_S8_S1x1x8_2
          (muli (iotaInDim S8 32 0) (broadcastInDim S8 ![] bcast_S_S8 (constantI S_ 32 4#32)))) (ix3 g C j)
      = IntOp.muli (BitVec.ofNat 32 j.val) 4#32 := rfl

/-- Column `8·C + j` of group `g` of the unpacked words is nibble `j` of the packed word at `(g, C)`. -/
theorem unpacked_apply (w : IVec S32x1376 32) (g : Fin 32) (C : Fin 1376) (j : Fin 8) :
    unpacked w (ix2 g ⟨C.val * 8 + j.val, by have := j.isLt; have := C.isLt; omega⟩) = nibble (w (ix2 g C)) j := by
  unfold unpacked
  rw [shapeCast_apply _ shapeCasts_S32x1376x8_S32x11008 _ (ix3 g C j)
    (by rw [Shape.rowMajor_val_three, Shape.rowMajor_val_two]
        show (g.val * 1376 + C.val) * 8 + j.val = g.val * 11008 + (C.val * 8 + j.val)
        omega)]
  show IntOp.andi (IntOp.shrsi .host
      (broadcastInDim S32x1376x8 ![0, 1, 2] bcast_S32x1376x1_S32x1376x8_0_1_2
        (broadcastInDim S32x1376x1 ![0, 1] bcast_S32x1376_S32x1376x1_0_1 w) (ix3 g C j))
      (broadcastInDim S32x1376x8 ![0, 1, 2] bcast_S1x1x8_S32x1376x8_0_1_2
        (broadcastInDim S1x1x8 ![2] bcast_S8_S1x1x8_2
          (muli (iotaInDim S8 32 0) (broadcastInDim S8 ![] bcast_S_S8 (constantI S_ 32 4#32)))) (ix3 g C j))) 15#32 = _
  rw [bcast_word_apply, bcast_shift_apply, nibble_host]

/-! ### The first low-rank matmul -/

/-- The host's product of `x` with the transposed `A`, read at `(t, r)`: the sum over the 4096 input rows. -/
theorem lowRank_apply (x : FVec Ideal S256x4096 .bf16) (a : FVec Ideal S16x4096 .bf16) (t : Fin 256) (r : Fin 16) :
    Host.dotGeneral dot_S256x4096_S4096x16_S256x16_1_0_0_1_n_n none x (transpose S4096x16 [1, 0] a transposes_S16x4096_S4096x16_1_0) (ix2 t r)
      = ∑ k : Fin 4096, x (ix2 t k) * a (ix2 r k) := by
  simp only [Host.dotGeneral]
  rw [Ideal.dotGeneral_apply, ← Equiv.sum_comp (contrEquiv1 dot_S256x4096_S4096x16_S256x16_1_0_0_1_n_n 4096 rfl rfl).symm]
  refine Finset.sum_congr rfl fun k _ => ?_
  have hk := contrEquiv1_symm_val dot_S256x4096_S4096x16_S256x16_1_0_0_1_n_n 4096 rfl rfl k
  -- the non-contracted axes carry the result's coordinates
  have l0 : ∀ q : dot_S256x4096_S4096x16_S256x16_1_0_0_1_n_n.contr.Idx, (dot_S256x4096_S4096x16_S256x16_1_0_0_1_n_n.lhsIdx (ix2 t r) q 0).val = t.val := fun q => by
    unfold DotDims.lhsIdx
    rw [dif_neg (show ¬(0 : Fin S256x4096.rank) ∈ dot_S256x4096_S4096x16_S256x16_1_0_0_1_n_n.lhsBatch by decide),
      dif_pos (show (0 : Fin S256x4096.rank) ∈ dot_S256x4096_S4096x16_S256x16_1_0_0_1_n_n.lhsNonContracting by decide)]
    rfl
  have r1 : ∀ q : dot_S256x4096_S4096x16_S256x16_1_0_0_1_n_n.contr.Idx, (dot_S256x4096_S4096x16_S256x16_1_0_0_1_n_n.rhsIdx (ix2 t r) q 1).val = r.val := fun q => by
    unfold DotDims.rhsIdx
    rw [dif_neg (show ¬(1 : Fin S4096x16.rank) ∈ dot_S256x4096_S4096x16_S256x16_1_0_0_1_n_n.rhsBatch by decide),
      dif_pos (show (1 : Fin S4096x16.rank) ∈ dot_S256x4096_S4096x16_S256x16_1_0_0_1_n_n.rhsNonContracting by decide)]
    rfl
  have el : dot_S256x4096_S4096x16_S256x16_1_0_0_1_n_n.lhsIdx (ix2 t r) ((contrEquiv1 dot_S256x4096_S4096x16_S256x16_1_0_0_1_n_n 4096 rfl rfl).symm k) = ix2 t k :=
    funext fun b => Fin.ext (by
      match b with
      | ⟨0, _⟩ => exact l0 _
      | ⟨1, _⟩ => exact (dot_S256x4096_S4096x16_S256x16_1_0_0_1_n_n.lhsIdx_val_of_single rfl _ _).trans hk)
  have er : dot_S256x4096_S4096x16_S256x16_1_0_0_1_n_n.rhsIdx (ix2 t r) ((contrEquiv1 dot_S256x4096_S4096x16_S256x16_1_0_0_1_n_n 4096 rfl rfl).symm k) = ix2 k r :=
    funext fun b => Fin.ext (by
      match b with
      | ⟨0, _⟩ => exact (dot_S256x4096_S4096x16_S256x16_1_0_0_1_n_n.rhsIdx_val_of_single rfl _ _).trans hk
      | ⟨1, _⟩ => exact r1 _)
  rw [el, er, transpose_apply [1, 0] a transposes_S16x4096_S4096x16_1_0 (ix2 k r) (ix2 r k)
    (fun b => match b with | ⟨0, _⟩ => rfl | ⟨1, _⟩ => rfl)]

end HostIn

open HostIn

/-! ### The six arrays -/

/-- `x` reaches the region unchanged (a format change). -/
theorem xA_apply (c : Dev nD) (t : Fin 256) (k : Fin 4096) : xA m c (ix2 t k) = xArg m c (ix2 t k) := by
  have e : xA m c = truncf .bf16 (xArg m c) bitsLt_bf16_f32 := by
    dsimp only [xA, Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results
  rw [e, truncf_apply]

/-- The packed weights: inside the unpadded columns, the argument. -/
theorem qwA_apply (c : Dev nD) (k : Fin 4096) (C : Fin 1408) (hC : C.val < 1376) :
    qwA m c (ix2 k C) = qwArg m c (ix2 k ⟨C.val, hC⟩) := by
  have e : qwA m c = pad S4096x1408 ![0, 0] ![0, 32] ![0, 0] (qwArg m c) (constantI S_ 32 0#32)
      pads_S4096x1376_S4096x1408_000_0320 h_S_ := by
    dsimp only [qwA, Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results
    rfl
  rw [e, pad_qw_apply _ _ k C hC]

/-- The zero points: plane `j`, packed column `C` of group `g` is nibble `j` of the packed word at `(g, C)`. -/
theorem zA_apply (c : Dev nD) (g : Fin 32) (j : Fin 8) (C : Fin 1408) (hC : C.val < 1376) :
    zA m c (ix3 g j C) = nib (qzArg m c (ix2 g ⟨C.val, hC⟩)) j := by
  have e : zA m c = truncf .bf16 (transpose S32x8x1408 [0, 2, 1] (shapeCast S32x1408x8
      (pad S32x11264 ![0, 0] ![0, 256] ![0, 0] (sitofp .f32 (unpacked (qzArg m c)) : FVec Ideal S32x11008 .f32) (sitofp .f32 (constantI S_ 32 0#32) : FVec Ideal S_ .f32)
        pads_S32x11008_S32x11264_000_02560 h_S_) shapeCasts_S32x11264_S32x1408x8)
      transposes_S32x1408x8_S32x8x1408_0_2_1) bitsLt_bf16_f32 := by
    dsimp only [zA, Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results
    rfl
  have hj := j.isLt
  rw [e, truncf_apply, planes_apply, pad_cols_apply _ _ g _ (by show C.val * 8 + j.val < 11008; omega), sitofp_apply]
  show FloatOps.sitofp .f32 (unpacked (qzArg m c) (ix2 g ⟨(⟨C.val, hC⟩ : Fin 1376).val * 8 + j.val, _⟩)) = _
  rw [unpacked_apply, sitofp_eq]
  rfl

/-- The scales: plane `j`, packed column `C` of group `g` is column `8·C + j`. -/
theorem sA_apply (c : Dev nD) (g : Fin 32) (j : Fin 8) (C : Fin 1408) (hC : C.val < 1376) :
    sA m c (ix3 g j C) = scArg m c (ix2 g ⟨C.val * 8 + j.val, by have := j.isLt; omega⟩) := by
  have e : sA m c = truncf .bf16 (transpose S32x8x1408 [0, 2, 1] (shapeCast S32x1408x8
      (pad S32x11264 ![0, 0] ![0, 256] ![0, 0] (scArg m c) (sitofp .f32 (constantI S_ 32 0#32) : FVec Ideal S_ .f32)
        pads_S32x11008_S32x11264_000_02560 h_S_) shapeCasts_S32x11264_S32x1408x8)
      transposes_S32x1408x8_S32x8x1408_0_2_1) bitsLt_bf16_f32 := by
    dsimp only [sA, Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results
    rfl
  have hj := j.isLt
  rw [e, truncf_apply, planes_apply, pad_cols_apply _ _ g _ (by show C.val * 8 + j.val < 11008; omega)]

/-- The first low-rank stage. -/
theorem lpA_apply (c : Dev nD) (t : Fin 256) (r : Fin 16) :
    lpA m c (ix2 t r) = lowRankIn (xArg m c) (laArg m c) t r := by
  have e : lpA m c = Host.dotGeneral dot_S256x4096_S4096x16_S256x16_1_0_0_1_n_n none (truncf .bf16 (xArg m c) bitsLt_bf16_f32)
      (transpose S4096x16 [1, 0] (truncf .bf16 (laArg m c) bitsLt_bf16_f32) transposes_S16x4096_S4096x16_1_0) := by
    dsimp only [lpA, Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results_simp
  rw [e, lowRank_apply]
  rfl

/-- The rows of `B`: plane `j`, packed column `C` is row `8·C + j`. -/
theorem lbA_apply (c : Dev nD) (j : Fin 8) (C : Fin 1408) (r : Fin 16) (hC : C.val < 1376) :
    lbA m c (ix3 j C r) = lbArg m c (ix2 ⟨C.val * 8 + j.val, by have := j.isLt; omega⟩ r) := by
  have e : lbA m c = truncf .bf16 (transpose S8x1408x16 [1, 0, 2] (shapeCast S1408x8x16
      (pad S11264x16 ![0, 0] ![256, 0] ![0, 0] (lbArg m c) (sitofp .f32 (constantI S_ 32 0#32) : FVec Ideal S_ .f32)
        pads_S11008x16_S11264x16_02560_000 h_S_) shapeCasts_S11264x16_S1408x8x16)
      transposes_S1408x8x16_S8x1408x16_1_0_2) bitsLt_bf16_f32 := by
    dsimp only [lbA, Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results
    rfl
  have hj := j.isLt
  rw [e, truncf_apply, rowPlanes_apply, pad_rows_apply _ _ _ r (by show C.val * 8 + j.val < 11008; omega)]

end Cert.KernelIdeal.Layer

end
-- ==== Proof.Blocks.lean ====
/-
  Which entries of its operand arrays a grid point sees.

  The grid is 11 column tiles × 2 halves, walked tile by tile: point `2·n + kk` is half `kk` of tile `n`. The whole of
  `x` and of the first low-rank stage is staged at every point; the packed-weight block is rows `2048·kk …` and packed
  columns `128·n …`; the zero-point and scale blocks are groups `16·kk …`, all 8 planes, packed columns `128·n …`;
  the block of `B`'s rows is all 8 planes, packed columns `128·n …`. Each block entry is the array entry at the
  block's offset plus the position inside the block.
-/
import proofs.«427479_j4337916969000_3_alg».proof.Proof.HostIn

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.Dequant

variable (m : (ℓ : Loc nD τ sig) → Buf (Elt Ideal) ℓ)

/-! The block indices of the six input windows, decided once over the 22 grid points: point `t` has grid coordinates
    `(t / 2, t % 2)`. -/

theorem blkIdx0 : ∀ t : Fin grid0.N, win0_0.index t 0 = 0 ∧ win0_0.index t 1 = 0 := by decide +kernel

theorem blkIdx1 : ∀ t : Fin grid0.N, win0_1.index t 0 = t.val % 2 ∧ win0_1.index t 1 = t.val / 2 := by decide +kernel

theorem blkIdx2 : ∀ t : Fin grid0.N, win0_2.index t 0 = t.val % 2 ∧ win0_2.index t 1 = 0 ∧ win0_2.index t 2 = t.val / 2 := by
  decide +kernel

theorem blkIdx3 : ∀ t : Fin grid0.N, win0_3.index t 0 = t.val % 2 ∧ win0_3.index t 1 = 0 ∧ win0_3.index t 2 = t.val / 2 := by
  decide +kernel

theorem blkIdx4 : ∀ t : Fin grid0.N, win0_4.index t 0 = 0 ∧ win0_4.index t 1 = 0 := by decide +kernel

theorem blkIdx5 : ∀ t : Fin grid0.N, win0_5.index t 0 = 0 ∧ win0_5.index t 1 = t.val / 2 ∧ win0_5.index t 2 = 0 := by
  decide +kernel

/-- The offsets of the body's load of `x`, decided over the grid: row 0, column `2048 · (t % 2)`. -/
theorem blkOff1 : ∀ t : Fin grid0.N, k0_off1 (grid0.coords t) = ![0, (t.val % 2) * 2048] := by decide +kernel

/-- `x`: the whole array at every point. -/
theorem blk_x (c : Dev nD) (t : Fin cfg0.N) (tt : Fin 256) (k : Fin 4096) :
    (iblk m c 0 t : Vec Ideal S256x4096 .bf16) (ix2 tt k) = xA m c (ix2 tt k) := by
  unfold iblk
  rw [View.read_apply]
  show V m c main_v22 _ = V m c main_v22 _
  congr 1
  funext a
  apply Fin.ext
  match a with
  | ⟨0, _⟩ =>
    show win0_0.index t 0 * 256 + 1 * tt.val = tt.val
    rw [(blkIdx0 t).1]; omega
  | ⟨1, _⟩ =>
    show win0_0.index t 1 * 4096 + 1 * k.val = k.val
    rw [(blkIdx0 t).2]; omega

/-- The packed weights: rows of half `kk`, packed columns of tile `n`. -/
theorem blk_qw (c : Dev nD) (t : Fin cfg0.N) (n : Fin 11) (kk : Fin 2) (ht : t.val = 2 * n.val + kk.val)
    (r : Fin 2048) (cc : Fin 128) :
    (iblk m c 1 t : Vec Ideal S2048x128 .i32) (ix2 r cc)
      = qwA m c (ix2 ⟨kk.val * 2048 + r.val, by have := kk.isLt; have := r.isLt; omega⟩
          ⟨n.val * 128 + cc.val, by have := n.isLt; have := cc.isLt; omega⟩) := by
  have hk := kk.isLt
  have hn := n.isLt
  unfold iblk
  rw [View.read_apply]
  show V m c main_v0 _ = V m c main_v0 _
  congr 1
  funext a
  apply Fin.ext
  match a with
  | ⟨0, _⟩ =>
    show win0_1.index t 0 * 2048 + 1 * r.val = kk.val * 2048 + r.val
    rw [(blkIdx1 t).1]; omega
  | ⟨1, _⟩ =>
    show win0_1.index t 1 * 128 + 1 * cc.val = n.val * 128 + cc.val
    rw [(blkIdx1 t).2]; omega

/-- The zero points: groups of half `kk`, packed columns of tile `n`. -/
theorem blk_z (c : Dev nD) (t : Fin cfg0.N) (n : Fin 11) (kk : Fin 2) (ht : t.val = 2 * n.val + kk.val)
    (gb : Fin 16) (j : Fin 8) (cc : Fin 128) :
    (iblk m c 2 t : Vec Ideal S16x8x128 .bf16) (ix3 gb j cc)
      = zA m c (ix3 ⟨kk.val * 16 + gb.val, by have := kk.isLt; have := gb.isLt; omega⟩ j
          ⟨n.val * 128 + cc.val, by have := n.isLt; have := cc.isLt; omega⟩) := by
  have hk := kk.isLt
  have hn := n.isLt
  unfold iblk
  rw [View.read_apply]
  show V m c main_v25 _ = V m c main_v25 _
  congr 1
  funext a
  apply Fin.ext
  match a with
  | ⟨0, _⟩ =>
    show win0_2.index t 0 * 16 + 1 * gb.val = kk.val * 16 + gb.val
    rw [(blkIdx2 t).1]; omega
  | ⟨1, _⟩ =>
    show win0_2.index t 1 * 8 + 1 * j.val = j.val
    rw [(blkIdx2 t).2.1]; omega
  | ⟨2, _⟩ =>
    show win0_2.index t 2 * 128 + 1 * cc.val = n.val * 128 + cc.val
    rw [(blkIdx2 t).2.2]; omega

/-- The scales: the same block of the scales' array. -/
theorem blk_s (c : Dev nD) (t : Fin cfg0.N) (n : Fin 11) (kk : Fin 2) (ht : t.val = 2 * n.val + kk.val)
    (gb : Fin 16) (j : Fin 8) (cc : Fin 128) :
    (iblk m c 3 t : Vec Ideal S16x8x128 .bf16) (ix3 gb j cc)
      = sA m c (ix3 ⟨kk.val * 16 + gb.val, by have := kk.isLt; have := gb.isLt; omega⟩ j
          ⟨n.val * 128 + cc.val, by have := n.isLt; have := cc.isLt; omega⟩) := by
  have hk := kk.isLt
  have hn := n.isLt
  unfold iblk
  rw [View.read_apply]
  show V m c main_v24 _ = V m c main_v24 _
  congr 1
  funext a
  apply Fin.ext
  match a with
  | ⟨0, _⟩ =>
    show win0_3.index t 0 * 16 + 1 * gb.val = kk.val * 16 + gb.val
    rw [(blkIdx3 t).1]; omega
  | ⟨1, _⟩ =>
    show win0_3.index t 1 * 8 + 1 * j.val = j.val
    rw [(blkIdx3 t).2.1]; omega
  | ⟨2, _⟩ =>
    show win0_3.index t 2 * 128 + 1 * cc.val = n.val * 128 + cc.val
    rw [(blkIdx3 t).2.2]; omega

/-- The first low-rank stage: the whole array at every point. -/
theorem blk_lp (c : Dev nD) (t : Fin cfg0.N) (tt : Fin 256) (r : Fin 16) :
    (iblk m c 4 t : Vec Ideal S256x16 .f32) (ix2 tt r) = lpA m c (ix2 tt r) := by
  unfold iblk
  rw [View.read_apply]
  show V m c main_v28 _ = V m c main_v28 _
  congr 1
  funext a
  apply Fin.ext
  match a with
  | ⟨0, _⟩ =>
    show win0_4.index t 0 * 256 + 1 * tt.val = tt.val
    rw [(blkIdx4 t).1]; omega
  | ⟨1, _⟩ =>
    show win0_4.index t 1 * 16 + 1 * r.val = r.val
    rw [(blkIdx4 t).2]; omega

/-- The rows of `B`: packed columns of tile `n`. -/
theorem blk_lb (c : Dev nD) (t : Fin cfg0.N) (n : Fin 11) (kk : Fin 2) (ht : t.val = 2 * n.val + kk.val)
    (j : Fin 8) (cc : Fin 128) (r : Fin 16) :
    (iblk m c 5 t : Vec Ideal S8x128x16 .bf16) (ix3 j cc r)
      = lbA m c (ix3 j ⟨n.val * 128 + cc.val, by have := n.isLt; have := cc.isLt; omega⟩ r) := by
  have hk := kk.isLt
  have hn := n.isLt
  unfold iblk
  rw [View.read_apply]
  show V m c main_v26 _ = V m c main_v26 _
  congr 1
  funext a
  apply Fin.ext
  match a with
  | ⟨0, _⟩ =>
    show win0_5.index t 0 * 8 + 1 * j.val = j.val
    rw [(blkIdx5 t).1]; omega
  | ⟨1, _⟩ =>
    show win0_5.index t 1 * 128 + 1 * cc.val = n.val * 128 + cc.val
    rw [(blkIdx5 t).2.1]; omega
  | ⟨2, _⟩ =>
    show win0_5.index t 2 * 16 + 1 * r.val = r.val
    rw [(blkIdx5 t).2.2]; omega

/-- The offset of the body's load of `x`'s half: column `2048·kk`. -/
theorem off_x (t : Fin cfg0.N) (n : Fin 11) (kk : Fin 2) (ht : t.val = 2 * n.val + kk.val) :
    k0_off1 (grid0.coords t) = ![0, kk.val * 2048] := by
  have hk := kk.isLt
  rw [blkOff1 t]
  have h2 : t.val % 2 = kk.val := by omega
  rw [h2]

end Cert.KernelIdeal.Layer

end
-- ==== Proof.Result.lean ====
/-
  From what the tiles' last points leave to the program's result.

  Each tile's output block is written back once, after the tile's second half (point `2·n + 1`), to columns
  `1024·n …` of the padded 256 × 11264 array; the eleven blocks tile that array, so column `O` of it is column
  `O mod 1024` of tile `⌊O/1024⌋`'s block. The program's result is the first 11008 columns.
-/
import proofs.«427479_j4337916969000_3_alg».proof.Proof.Gen.KernelIdeal.Frame
import proofs.«427479_j4337916969000_3_alg».proof.Proof.TileShare
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.Dequant

variable (m : (ℓ : Loc nD τ sig) → Buf (Elt Ideal) ℓ)

/-- The second half of tile `n` is a point of the grid. -/
theorem tile_last_lt (n : Fin 11) : 2 * n.val + 1 < cfg0.N :=
  lt_of_lt_of_eq (by have := n.isLt; omega : 2 * n.val + 1 < 22) (show cfg0.N = 22 from N_0).symm

/-- Tile `n`'s output block as its last point leaves it. -/
def tileOut (c : Dev nD) (n : Fin 11) : Vec Ideal S256x1024 .f32 :=
  (outsAt0 m c (2 * n.val + 1) (tile_last_lt n)).1

/-- The padded result array, tile by tile. -/
def padded (c : Dev nD) : FVec Ideal S256x11264 .f32 := fun i =>
  tileOut m c ⟨(i 1).val / 1024, by have h : (i 1).val < 11264 := (i 1).isLt; omega⟩
    (ix2 (i 0) ⟨(i 1).val % 1024, by omega⟩)

/-- The output window's block index over the grid: row block 0, column block the tile's number. -/
theorem index6 : ∀ t : Fin cfg0.N, win0_6.index t 0 = 0 ∧ win0_6.index t 1 = t.val / 2 :=
  (by decide +kernel : ∀ t : Fin grid0.N, win0_6.index t 0 = 0 ∧ win0_6.index t 1 = t.val / 2)

/-- What a point leaves in the output block depends on the point's number and the index only, not on how either is
    spelled. -/
theorem outsAt0_fst_congr (c : Dev nD) {n n' : ℕ} (h : n < cfg0.N) (h' : n' < cfg0.N) (e : n = n')
    {y y' : S256x1024.Idx} (ey : y = y') : (outsAt0 m c n h).1 y = (outsAt0 m c n' h').1 y' := by
  subst e; subst ey; rfl

/-- What a point that writes back writes is its block of the padded array. -/
theorem flushed_padded (c : Dev nD) (t : Fin cfg0.N) (hf : (cfg0.win 6).flush t = true) :
    (dats m 0 c).flushed 6 t = ((cfg0.win 6).blk t).view.read (Elt Ideal) (padded m c) := by
  have hodd : t.val % 2 = 1 := (flush0_6 t).mp hf
  have hN : t.val < 22 := lt_of_lt_of_eq t.isLt (show cfg0.N = 22 from N_0)
  obtain ⟨i0, i1⟩ := index6 t
  show (cfg0.win 6).cut (grid0.coords t) ((dats m 0 c).after 6 t) = _
  rw [after0_6]
  funext j
  have hj0 : (j 0).val < 256 := (j 0).isLt
  have hj1 : (j 1).val < 1024 := (j 1).isLt
  have e0 : ((((cfg0.win 6).blk t).view.emb j) 0).val = win0_6.index t 0 * 256 + 1 * (j 0).val := rfl
  have e1 : ((((cfg0.win 6).blk t).view.emb j) 1).val = win0_6.index t 1 * 1024 + 1 * (j 1).val := rfl
  show (outsAt0 m c t.val t.isLt).1 ((cfg0.win 6).xinj (grid0.coords t) j)
    = (outsAt0 m c (2 * (((((cfg0.win 6).blk t).view.emb j) 1).val / 1024) + 1) _).1
        (ix2 ((((cfg0.win 6).blk t).view.emb j) 0) ⟨((((cfg0.win 6).blk t).view.emb j) 1).val % 1024, _⟩)
  refine outsAt0_fst_congr m c _ _ ?_ ?_
  · rw [e1, i1]; omega
  · funext a
    match a with
    | ⟨0, _⟩ => exact Fin.ext (show (j 0).val = ((((cfg0.win 6).blk t).view.emb j) 0).val by rw [e0, i0]; omega)
    | ⟨1, _⟩ => exact Fin.ext (show (j 1).val = ((((cfg0.win 6).blk t).view.emb j) 1).val % 1024 by rw [e1, i1]; omega)

/-- The pipeline's output array ends at it: the blocks written back after each tile's last point cover it. -/
theorem arrAt_padded (c : Dev nD) : (dats m 0 c).arrAt 6 cfg0.N = padded m c :=
  (dats m 0 c).arrAt_eq_of_cover 6 (padded m c) (flushed_padded m c) fun i => by
    -- column `O` lies in the block written back after the last point of tile `O / 1024`
    have h0 : (i 0 : Nat) < 256 := (i 0).isLt
    have h1 : (i 1 : Nat) < 11264 := (i 1).isLt
    have hN : cfg0.N = 22 := N_0
    obtain ⟨t, ht⟩ : ∃ t : Fin cfg0.N, t.val = 2 * ((i 1 : Nat) / 1024) + 1 :=
      ⟨⟨2 * ((i 1 : Nat) / 1024) + 1, by rw [hN]; omega⟩, rfl⟩
    obtain ⟨i0, i1⟩ := index6 t
    refine ⟨t, (flush0_6 t).mpr (by omega), ?_⟩
    show i ∈ ((View.whole main_v29).slice (win0_6.rect t)).set
    rw [View.set_slice_whole, Rect.mem_set_unit]
    intro a
    match a with
    | ⟨0, _⟩ =>
      show win0_6.index t 0 * 256 ≤ (i 0 : Nat) ∧ (i 0 : Nat) < win0_6.index t 0 * 256 + 256
      rw [i0]; omega
    | ⟨1, _⟩ =>
      show win0_6.index t 1 * 1024 ≤ (i 1 : Nat) ∧ (i 1 : Nat) < win0_6.index t 1 * 1024 + 1024
      rw [i1, ht]; omega

/-- The host operation after the region cuts the first 11008 columns out. -/
theorem tail_apply (c : Dev nD) (tt : Fin 256) (o : Fin 11008) :
    (Pipeline.afterTail₀ cfgs (dats m) 0 (V0 m) [hostOps1] c main_v30 : FVec Ideal S256x11008 .f32) (ix2 tt o)
      = (dats m 0 c).arrAt 6 cfg0.N (ix2 tt ⟨o.val, by have := o.isLt; omega⟩) := by
  unfold Pipeline.afterTail₀
  show StableHlo.after (List.flatten [hostOps1]) _ (Proc.devRef .tc main_v30) (ix2 tt o) = _
  simp only [List.flatten_cons, List.flatten_nil, List.append_nil, hostOps1]
  after_results
  -- the slice at zero offsets reads the padded array at the same coordinates; the padded array is the output window's
  refine (extractStridedSlice_apply ![0, 0] _ slices_S256x11264_S256x11008_0_0 (ix2 tt o)
    (ix2 tt ⟨o.val, by have := o.isLt; omega⟩) fun a => ?_).trans ?_
  · match a with
    | ⟨0, _⟩ => show tt.val = 0 + tt.val; omega
    | ⟨1, _⟩ => show o.val = 0 + o.val; omega
  · exact congrFun (Pipeline.withArrays_arr spec0 launch0.win.arr_inj c _ _ 6) _

/-- The run, read: if the padded array's first 11008 columns are `L`, the program ends with its result at `L` and its
    arguments unchanged. -/
theorem run_of (ρ : Dev nD → PrngReg) (L : (c : Dev nD) → FVec Ideal S256x11008 .f32)
    (hL : ∀ c (tt : Fin 256) (o : Fin 11008), padded m c (ix2 tt ⟨o.val, by have := o.isLt; omega⟩) = L c (ix2 tt o)) :
    θ_run defs (onTc (τ := τ) (main (F := Ideal))) ⟨m, fun _ => 0, ρ⟩ (fun r => ∀ c : Dev nD,
      r.2.mem ((c.tc : Thread nD τ).loc main_v30) = L c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v30 (Pipeline.mem_restRefs_of main_v30 (by decide) (by decide))).trans (funext fun i => by
        obtain ⟨tt, o, rfl⟩ : ∃ (tt : Fin 256) (o : Fin 11008), i = ix2 tt o := ⟨i 0, i 1, eq_ix2 i⟩
        rw [tail_apply, arrAt_padded, hL]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Layer

end
-- ==== Proof.KernelLayer.lean ====
/-
  The kernel computes the layer.

  Tile `n`'s output block, after the tile's two halves, holds at `(t, 8·cc + j)`
  `(0 + D₀) + D₁ + 2·L`: the first half's dot product (accumulator reset), the second half's, and twice the low-rank
  term. The two halves' blocks are rows `0 …` and `2048 …` of the operand arrays, so by `sum_halves` the two dot products
  are the layer's sum over all 4096 input rows at output column `8·(128·n + cc) + j`; the low-rank term is the layer's.
  Only packed columns below 1376 reach the result.
-/
import proofs.«427479_j4337916969000_3_alg».proof.Proof.CaseValues
import proofs.«427479_j4337916969000_3_alg».proof.Proof.Blocks
import proofs.«427479_j4337916969000_3_alg».proof.Proof.Result

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.Dequant

variable (m : (ℓ : Loc nD τ sig) → Buf (Elt Ideal) ℓ)

/-- What a point leaves in the carried accumulator depends on the point's number only, not on how it is spelled. -/
theorem acc_congr_point (c : Dev nD) {a a' : ℕ} (h : a < cfg0.N) (h' : a' < cfg0.N) (e : a = a')
    (y : S256x1024.Idx) : (outsAt0 m c a h).2 y = (outsAt0 m c a' h').2 y := by
  subst e; rfl

/-- After the first half of tile `n` (point `t0`) the accumulator holds, at plane-major position `(tt, 128·j + cc)`, the
    first half's dot product over the point's blocks. -/
theorem acc_after_first_half (c : Dev nD) (n : Fin 11) (t0 : Fin cfg0.N) (h0 : t0.val = 2 * n.val + (0 : Fin 2).val)
    (tt : Fin 256) (j : Fin 8) (cc : Fin 128) :
    (outsAt0 m c t0.val t0.isLt).2 (ix2 tt (planeCol j cc))
      = halfDot (iblk m c 0 t0) 0 (by omega) (iblk m c 1 t0) (iblk m c 2 t0) (iblk m c 3 t0) tt j cc := by
  have e0 : t0.val % 2 = 0 := by have : t0.val = 2 * n.val := by simpa using h0
                                 omega
  have e1 : ¬t0.val % 2 = 1 := by omega
  have hi : k0_off1 (grid0.coords t0) = ![0, 0] := by simpa using off_x t0 n 0 h0
  rw [outsAt0_A m c t0 e0 e1]
  dsimp only
  exact acc_first c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) ((hcond0_0 t0).mpr e0) (fun h => e1 ((hcond0_1 t0).mp h)) (iblk m c 0 t0) (iblk m c 1 t0) (iblk m c 2 t0) (iblk m c 3 t0) (iblk m c 4 t0) (iblk m c 5 t0) 0 (by omega) hi tt j cc

/-- Tile `n`'s output block after its second half (point `t1`), over the two points' blocks: the two halves' dot
    products, then twice the low-rank term. -/
theorem tileOut_over_blocks (c : Dev nD) (n : Fin 11) (t0 t1 : Fin cfg0.N) (h0 : t0.val = 2 * n.val + (0 : Fin 2).val)
    (h1 : t1.val = 2 * n.val + (1 : Fin 2).val) (tt : Fin 256) (j : Fin 8) (cc : Fin 128) :
    tileOut m c n (ix2 tt (outCol j cc))
      = (halfDot (iblk m c 0 t0) 0 (by omega) (iblk m c 1 t0) (iblk m c 2 t0) (iblk m c 3 t0) tt j cc
          + halfDot (iblk m c 0 t1) 2048 (by omega) (iblk m c 1 t1) (iblk m c 2 t1) (iblk m c 3 t1) tt j cc)
        + Ideal.ofBits .f32 0x40000000#32 * lowRankOut (iblk m c 4 t1) (iblk m c 5 t1) tt j cc := by
  have v0 : t0.val = 2 * n.val := by simpa using h0
  have v1 : t1.val = 2 * n.val + 1 := by simpa using h1
  have e0 : ¬t1.val % 2 = 0 := by omega
  have e1 : t1.val % 2 = 1 := by omega
  have hi : k0_off1 (grid0.coords t1) = ![0, 2048] := by simpa using off_x t1 n 1 h1
  unfold tileOut
  rw [outsAt0_fst_congr m c (tile_last_lt n) t1.isLt v1.symm (rfl : ix2 tt (outCol j cc) = ix2 tt (outCol j cc)),
    outsAt0_B m c t1 e0 e1]
  dsimp only
  rw [out_second c (grid0.coords t1) (ms0_0 t1) (hs0_0 t1) (ms0_1 t1) (hs0_1 t1) (ms0_2 t1) (hs0_2 t1) (ms0_3 t1) (hs0_3 t1) (ms0_4 t1) (hs0_4 t1) (ms0_5 t1) (hs0_5 t1) (ms0_6 t1) (hs0_6 t1) scM0_0 (Memref.isWhole_whole _) scM0_1 (Memref.isWhole_whole _) (fun h => e0 ((hcond0_0 t1).mp h)) ((hcond0_1 t1).mpr e1) (iblk m c 0 t1) (iblk m c 1 t1) (iblk m c 2 t1) (iblk m c 3 t1) (iblk m c 4 t1) (iblk m c 5 t1)
      (outsAt0 m c (t1.val - 1) (Nat.lt_of_le_of_lt (Nat.sub_le _ _) t1.isLt)).2 2048 (by omega) hi tt j cc,
    acc_congr_point m c (Nat.lt_of_le_of_lt (Nat.sub_le _ _) t1.isLt) t0.isLt (by omega : t1.val - 1 = t0.val),
    acc_after_first_half m c n t0 h0 tt j cc]

/-- A half's dot product over blocks that are the arguments' entries at the block offsets is the layer's sum over the
    half's 2048 input rows, at output column `8·(128·n + cc) + j`: the row's group, the column's packed column and its
    nibble are the block's. -/
theorem halfDot_blocks_eq_layer (x0 : FVec Ideal SX .bf16) (q : IVec SQB 32) (z s : FVec Ideal SZB .bf16)
    (x : FVec Ideal SX .f32) (qw : IVec SQW 32) (qz : IVec SQZ 32) (sc : FVec Ideal SSC .f32)
    (n : Fin 11) (kk : Fin 2) (tt : Fin 256) (j : Fin 8) (cc : Fin 128) (hC : n.val * 128 + cc.val < 1376)
    (hx : ∀ k : Fin 4096, x0 (ix2 tt k) = x (ix2 tt k))
    (hq : ∀ r : Fin 2048, q (ix2 r cc)
      = qw (ix2 ⟨kk.val * 2048 + r.val, by have := kk.isLt; have := r.isLt; omega⟩ ⟨n.val * 128 + cc.val, hC⟩))
    (hz : ∀ g : Fin 16, z (ix3 g j cc)
      = nib (qz (ix2 ⟨kk.val * 16 + g.val, by have := kk.isLt; have := g.isLt; omega⟩ ⟨n.val * 128 + cc.val, hC⟩)) j)
    (hs : ∀ g : Fin 16, s (ix3 g j cc)
      = sc (ix2 ⟨kk.val * 16 + g.val, by have := kk.isLt; have := g.isLt; omega⟩
          ⟨(n.val * 128 + cc.val) * 8 + j.val, by have := j.isLt; omega⟩))
    (off : Nat) (hoff : off + 2048 ≤ 4096) (hk : off = kk.val * 2048) :
    halfDot x0 off hoff q z s tt j cc
      = ∑ r : Fin 2048, x (ix2 tt ⟨off + r.val, by have := r.isLt; omega⟩)
          * weight qw qz sc ⟨off + r.val, by have := r.isLt; omega⟩
              ⟨(n.val * 128 + cc.val) * 8 + j.val, by have := j.isLt; omega⟩ := by
  subst hk
  have hj := j.isLt
  have hkk := kk.isLt
  have eP : pcol ⟨(n.val * 128 + cc.val) * 8 + j.val, by omega⟩ = ⟨n.val * 128 + cc.val, hC⟩ :=
    Fin.ext (by show ((n.val * 128 + cc.val) * 8 + j.val) / 8 = n.val * 128 + cc.val; omega)
  have eL : lane ⟨(n.val * 128 + cc.val) * 8 + j.val, by omega⟩ = j :=
    Fin.ext (by show ((n.val * 128 + cc.val) * 8 + j.val) % 8 = j.val; omega)
  unfold halfDot
  refine Finset.sum_congr rfl fun r _ => ?_
  have hr := r.isLt
  have eG : grp ⟨kk.val * 2048 + r.val, by omega⟩
      = ⟨kk.val * 16 + (tileGrp r).val, by show kk.val * 16 + r.val / 128 < 32; omega⟩ :=
    Fin.ext (by show (kk.val * 2048 + r.val) / 128 = kk.val * 16 + r.val / 128; omega)
  unfold tileWeight weight
  rw [eP, eL, eG, hx, hq r, hz (tileGrp r), hs (tileGrp r)]

/-- The tile's low-rank term over blocks that are the first stage and the argument's rows of `B` is the layer's. -/
theorem lowRankOut_blocks_eq_layer (lp : FVec Ideal SLP .f32) (b : FVec Ideal SBB .bf16)
    (x : FVec Ideal SX .f32) (la : FVec Ideal SLA .f32) (lb : FVec Ideal SLB .f32)
    (n : Fin 11) (tt : Fin 256) (j : Fin 8) (cc : Fin 128) (hC : n.val * 128 + cc.val < 1376)
    (hlp : ∀ r : Fin 16, lp (ix2 tt r) = lowRankIn x la tt r)
    (hb : ∀ r : Fin 16, b (ix3 j cc r) = lb (ix2 ⟨(n.val * 128 + cc.val) * 8 + j.val, by have := j.isLt; omega⟩ r)) :
    lowRankOut lp b tt j cc
      = ∑ r : Fin 16, lowRankIn x la tt r * lb (ix2 ⟨(n.val * 128 + cc.val) * 8 + j.val, by have := j.isLt; omega⟩ r) := by
  unfold lowRankOut
  exact Finset.sum_congr rfl fun r _ => by rw [hlp r, hb r]

/-- The layer's sum over the 4096 input rows, cut at row 2048, with the first half's rows spelled `0 + r`. -/
theorem sum_halves_zero_add {M : Type} [AddCommMonoid M] (f : Fin 4096 → M) :
    ∑ k : Fin 4096, f k
      = (∑ r : Fin 2048, f ⟨0 + r.val, by have := r.isLt; omega⟩)
        + ∑ r : Fin 2048, f ⟨2048 + r.val, by have := r.isLt; omega⟩ := by
  exact (sum_halves f).trans
    (congrArg₂ (· + ·) (Finset.sum_congr rfl fun r _ => congrArg f (Fin.ext (Nat.zero_add _).symm)) rfl)

/-- Tile `n`'s output block at `(tt, 8·cc + j)` is the layer at output column `8·(128·n + cc) + j`, for packed columns that
    are not padding. -/
theorem tile_value (c : Dev nD) (n : Fin 11) (tt : Fin 256) (j : Fin 8) (cc : Fin 128) (hC : n.val * 128 + cc.val < 1376) :
    tileOut m c n (ix2 tt (outCol j cc))
      = layerAt (xArg m c) (qwArg m c) (qzArg m c) (scArg m c) (laArg m c) (lbArg m c) tt
          ⟨(n.val * 128 + cc.val) * 8 + j.val, by have := j.isLt; omega⟩ := by
  have hn := n.isLt
  have hN : cfg0.N = 22 := N_0
  obtain ⟨t0, h0⟩ : ∃ t0 : Fin cfg0.N, t0.val = 2 * n.val + (0 : Fin 2).val :=
    ⟨⟨2 * n.val, by rw [hN]; omega⟩, by simp⟩
  obtain ⟨t1, h1⟩ : ∃ t1 : Fin cfg0.N, t1.val = 2 * n.val + (1 : Fin 2).val :=
    ⟨⟨2 * n.val + 1, tile_last_lt n⟩, by simp⟩
  rw [tileOut_over_blocks m c n t0 t1 h0 h1 tt j cc,
    halfDot_blocks_eq_layer (iblk m c 0 t0) (iblk m c 1 t0) (iblk m c 2 t0) (iblk m c 3 t0)
      (xArg m c) (qwArg m c) (qzArg m c) (scArg m c) n 0 tt j cc hC
      (fun k => (blk_x m c t0 tt k).trans (xA_apply m c tt k))
      (fun r => (blk_qw m c t0 n 0 h0 r cc).trans (qwA_apply m c _ _ hC))
      (fun g => (blk_z m c t0 n 0 h0 g j cc).trans (zA_apply m c _ j _ hC))
      (fun g => (blk_s m c t0 n 0 h0 g j cc).trans (sA_apply m c _ j _ hC))
      0 (by omega) (by simp),
    halfDot_blocks_eq_layer (iblk m c 0 t1) (iblk m c 1 t1) (iblk m c 2 t1) (iblk m c 3 t1)
      (xArg m c) (qwArg m c) (qzArg m c) (scArg m c) n 1 tt j cc hC
      (fun k => (blk_x m c t1 tt k).trans (xA_apply m c tt k))
      (fun r => (blk_qw m c t1 n 1 h1 r cc).trans (qwA_apply m c _ _ hC))
      (fun g => (blk_z m c t1 n 1 h1 g j cc).trans (zA_apply m c _ j _ hC))
      (fun g => (blk_s m c t1 n 1 h1 g j cc).trans (sA_apply m c _ j _ hC))
      2048 (by omega) (by simp),
    lowRankOut_blocks_eq_layer (iblk m c 4 t1) (iblk m c 5 t1) (xArg m c) (laArg m c) (lbArg m c) n tt j cc hC
      (fun r => (blk_lp m c t1 tt r).trans (lpA_apply m c tt r))
      (fun r => (blk_lb m c t1 n 1 h1 j cc r).trans (lbA_apply m c j _ r hC))]
  unfold layerAt
  rw [sum_halves_zero_add]

/-- The padded array's first 11008 columns are the layer. -/
theorem padded_layer (c : Dev nD) (tt : Fin 256) (o : Fin 11008) :
    padded m c (ix2 tt ⟨o.val, by have := o.isLt; omega⟩)
      = layer (xArg m c) (qwArg m c) (qzArg m c) (scArg m c) (laArg m c) (lbArg m c) (ix2 tt o) := by
  have ho := o.isLt
  obtain ⟨n, hn⟩ : ∃ n : Fin 11, n.val = o.val / 1024 := ⟨⟨o.val / 1024, by omega⟩, rfl⟩
  obtain ⟨cc, hcc⟩ : ∃ cc : Fin 128, cc.val = o.val % 1024 / 8 := ⟨⟨o.val % 1024 / 8, by omega⟩, rfl⟩
  obtain ⟨j, hj⟩ : ∃ j : Fin 8, j.val = o.val % 8 := ⟨⟨o.val % 8, by omega⟩, rfl⟩
  have hC : n.val * 128 + cc.val < 1376 := by omega
  have en : (⟨o.val / 1024, by omega⟩ : Fin 11) = n := Fin.ext hn.symm
  have ec : (⟨o.val % 1024, by omega⟩ : Fin 1024) = outCol j cc :=
    Fin.ext (by show o.val % 1024 = cc.val * 8 + j.val; omega)
  have eo : (⟨(n.val * 128 + cc.val) * 8 + j.val, by omega⟩ : Fin 11008) = o :=
    Fin.ext (by show (n.val * 128 + cc.val) * 8 + j.val = o.val; omega)
  show tileOut m c ⟨o.val / 1024, _⟩ (ix2 tt ⟨o.val % 1024, _⟩)
    = layerAt (xArg m c) (qwArg m c) (qzArg m c) (scArg m c) (laArg m c) (lbArg m c) tt o
  rw [en, ec, tile_value m c n tt j cc hC, eo]

/-- The kernel program's run: its result is the layer of its arguments, which it leaves unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v30)
        = layer (xArg m c) (qwArg m c) (qzArg m c) (scArg m c) (laArg m c) (lbArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of m ρ _ (padded_layer m)

end Cert.KernelIdeal.Layer

end
-- ==== Proof.RefLayer.lean ====
/-
  The reference computes the layer.

  Its program unpacks weights and zero points to full 4096 × 11008 and 32 × 11008 arrays (column `o` from nibble
  `o mod 8` of packed column `⌊o/8⌋`), forms `(w − z) · s` group by group, multiplies by `x`, and adds twice the
  rank-16 product. Read at an index through the reshapes and broadcasts, that is the layer's formula term by term.
-/
import proofs.«427479_j4337916969000_3_alg».proof.Proof.Gen.ReferenceIdeal.Read
import proofs.«427479_j4337916969000_3_alg».proof.Proof.DequantLinear
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.ValueIdx

namespace Cert.ReferenceIdeal.Layer

open Cert.ReferenceIdeal Cert.ReferenceIdeal.Read Cert.Dequant

/-- One unpacked weight word: the host's shift by `iota · 4` and mask with 15, read at packed column `c`, nibble `j`. -/
theorem unpackW_eq (x1 : IVec S4096x1376 32) (k : Fin 4096) (c : Fin 1376) (j : Fin 8) :
    val_main_v9 (F := Ideal) x1 (ix3 k c j) = nibble (x1 (ix2 k c)) j := by
  rw [val_main_v9_apply, val_main_v7_apply, val_main_v5_apply, val_main_v3_apply, val_main_v6_apply, val_main_v4_apply,
    val_main_v2_apply, val_main_v0_apply, val_main_v1_apply, val_main_c_apply, val_main_v8_apply, val_main_c_0_apply]
  have e : idx_main_v3 (idx_main_v5 (ix3 k c j)) = ix2 k c := funext fun a => by
    match a with
    | ⟨0, _⟩ => rfl
    | ⟨1, _⟩ => rfl
  rw [e]
  exact nibble_host _ j

/-- One unpacked zero-point word, the same way. -/
theorem unpackZ_eq (x2 : IVec S32x1376 32) (g : Fin 32) (c : Fin 1376) (j : Fin 8) :
    val_main_v21 (F := Ideal) x2 (ix3 g c j) = nibble (x2 (ix2 g c)) j := by
  rw [val_main_v21_apply, val_main_v19_apply, val_main_v17_apply, val_main_v15_apply, val_main_v18_apply, val_main_v16_apply,
    val_main_v14_apply, val_main_v12_apply, val_main_v13_apply, val_main_c_1_apply, val_main_v20_apply, val_main_c_2_apply]
  have e : idx_main_v15 (idx_main_v17 (ix3 g c j)) = ix2 g c := funext fun a => by
    match a with
    | ⟨0, _⟩ => rfl
    | ⟨1, _⟩ => rfl
  rw [e]
  exact nibble_host _ j

/-- The unpacked weights as floats: column `o` is nibble `o mod 8` of packed column `⌊o/8⌋`, since 11008 = 8 · 1376. -/
theorem w4_eq (x1 : IVec S4096x1376 32) (k : Fin 4096) (o : Fin 11008) :
    val_main_v11 (F := Ideal) x1 (ix2 k o) = nib (x1 (ix2 k (pcol o))) (lane o) := by
  rw [val_main_v11_apply, val_main_v10_apply]
  have hk := k.isLt
  have ho := o.isLt
  have e : idx_main_v10 (ix2 k o) = ix3 k (pcol o) (lane o) := funext fun a => Fin.ext (by
    match a with
    | ⟨0, _⟩ => show (k.val * 11008 + o.val) / 11008 = k.val; omega
    | ⟨1, _⟩ => show (k.val * 11008 + o.val) / 8 % 1376 = o.val / 8; omega
    | ⟨2, _⟩ => show (k.val * 11008 + o.val) % 8 = o.val % 8; omega)
  rw [e, unpackW_eq]
  rfl

/-- The unpacked zero points as floats. -/
theorem z4_eq (x2 : IVec S32x1376 32) (g : Fin 32) (o : Fin 11008) :
    val_main_v23 (F := Ideal) x2 (ix2 g o) = nib (x2 (ix2 g (pcol o))) (lane o) := by
  rw [val_main_v23_apply, val_main_v22_apply]
  have hg := g.isLt
  have ho := o.isLt
  have e : idx_main_v22 (ix2 g o) = ix3 g (pcol o) (lane o) := funext fun a => Fin.ext (by
    match a with
    | ⟨0, _⟩ => show (g.val * 11008 + o.val) / 11008 = g.val; omega
    | ⟨1, _⟩ => show (g.val * 11008 + o.val) / 8 % 1376 = o.val / 8; omega
    | ⟨2, _⟩ => show (g.val * 11008 + o.val) % 8 = o.val % 8; omega)
  rw [e, unpackZ_eq]
  rfl

/-- Row `k` within its group. -/
abbrev rowIn (k : Fin 4096) : Fin 128 := ⟨k.val % 128, by omega⟩

/-- The dequantised weight: through the reshape to 32 × 128 × 11008, row `k` is row `k mod 128` of group `⌊k/128⌋`, whose
    zero point and scale are broadcast along the group. -/
theorem weight_eq (x1 : IVec S4096x1376 32) (x2 : IVec S32x1376 32) (x3 : FVec Ideal S32x11008 .f32)
    (k : Fin 4096) (o : Fin 11008) :
    val_main_v31 (F := Ideal) x1 x2 x3 (ix2 k o) = weight x1 x2 x3 k o := by
  have hk := k.isLt
  have ho := o.isLt
  rw [val_main_v31_apply]
  have e : idx_main_v31 (ix2 k o) = ix3 (grp k) (rowIn k) o := funext fun a => Fin.ext (by
    match a with
    | ⟨0, _⟩ => show (k.val * 11008 + o.val) / 1409024 = k.val / 128; omega
    | ⟨1, _⟩ => show (k.val * 11008 + o.val) / 11008 % 128 = k.val % 128; omega
    | ⟨2, _⟩ => show (k.val * 11008 + o.val) % 11008 = o.val; omega)
  rw [e, val_main_v30_apply, val_main_v27_apply, val_main_v24_apply, val_main_v26_apply, val_main_v25_apply,
    val_main_v29_apply, val_main_v28_apply]
  have e24 : idx_main_v24 (ix3 (grp k) (rowIn k) o) = ix2 k o := funext fun a => Fin.ext (by
    match a with
    | ⟨0, _⟩ => show ((k.val / 128 * 128 + k.val % 128) * 11008 + o.val) / 11008 = k.val; omega
    | ⟨1, _⟩ => show ((k.val / 128 * 128 + k.val % 128) * 11008 + o.val) % 11008 = o.val; omega)
  have e25 : idx_main_v25 (idx_main_v26 (ix3 (grp k) (rowIn k) o)) = ix2 (grp k) o := funext fun a => by
    match a with
    | ⟨0, _⟩ => rfl
    | ⟨1, _⟩ => rfl
  have e28 : idx_main_v28 (idx_main_v29 (ix3 (grp k) (rowIn k) o)) = ix2 (grp k) o := funext fun a => by
    match a with
    | ⟨0, _⟩ => rfl
    | ⟨1, _⟩ => rfl
  rw [e24, e25, e28, w4_eq, z4_eq]
  rfl

/-- The first stage of the low-rank update: `x` against the transpose of `A`. -/
theorem lowRank_eq (x0 : FVec Ideal S256x4096 .f32) (x4 : FVec Ideal S16x4096 .f32) (t : Fin 256) (r : Fin 16) :
    val_main_v34 (F := Ideal) x0 x4 (ix2 t r) = lowRankIn x0 x4 t r := by
  rw [val_main_v34_apply]
  unfold lowRankIn
  refine Finset.sum_congr rfl fun k _ => ?_
  rw [val_main_v33_apply]
  have el : lidx_main_v34 (ix2 t r) k = ix2 t k := funext fun a => by
    match a with
    | ⟨0, _⟩ => rfl
    | ⟨1, _⟩ => rfl
  have er : idx_main_v33 (ridx_main_v34 (ix2 t r) k) = ix2 r k := funext fun a => by
    match a with
    | ⟨0, _⟩ => rfl
    | ⟨1, _⟩ => rfl
  rw [el, er]

/-- The reference's result, as its last stage states it, is the layer of the six arguments. -/
theorem ref_eq (x0 : FVec Ideal S256x4096 .f32) (x1 : IVec S4096x1376 32) (x2 : IVec S32x1376 32)
    (x3 : FVec Ideal S32x11008 .f32) (x4 : FVec Ideal S16x4096 .f32) (x5 : FVec Ideal S11008x16 .f32) :
    val_main_v39 (F := Ideal) x0 x1 x2 x3 x4 x5 = layer x0 x1 x2 x3 x4 x5 := by
  funext i
  obtain ⟨t, o, rfl⟩ : ∃ (t : Fin 256) (o : Fin 11008), i = ix2 t o := ⟨i 0, i 1, eq_ix2 i⟩
  show val_main_v39 (F := Ideal) x0 x1 x2 x3 x4 x5 (ix2 t o) = layerAt x0 x1 x2 x3 x4 x5 t o
  rw [val_main_v39_apply, val_main_v32_apply, val_main_v38_apply, val_main_v37_apply, val_main_cst_apply,
    val_main_v36_apply]
  unfold layerAt
  show (∑ k : Fin 4096, x0 (lidx_main_v32 (ix2 t o) k) * val_main_v31 (F := Ideal) x1 x2 x3 (ridx_main_v32 (ix2 t o) k))
      + Ideal.ofBits .f32 0x40000000#32
        * (∑ r : Fin 16, val_main_v34 (F := Ideal) x0 x4 (lidx_main_v36 (ix2 t o) r)
            * val_main_v35 (F := Ideal) x5 (ridx_main_v36 (ix2 t o) r))
    = _
  congr 1
  · refine Finset.sum_congr rfl fun k _ => ?_
    have el : lidx_main_v32 (ix2 t o) k = ix2 t k := funext fun a => by
      match a with
      | ⟨0, _⟩ => rfl
      | ⟨1, _⟩ => rfl
    have er : ridx_main_v32 (ix2 t o) k = ix2 k o := funext fun a => by
      match a with
      | ⟨0, _⟩ => rfl
      | ⟨1, _⟩ => rfl
    rw [el, er, weight_eq]
  · congr 1
    refine Finset.sum_congr rfl fun r _ => ?_
    rw [val_main_v35_apply]
    have el : lidx_main_v36 (ix2 t o) r = ix2 t r := funext fun a => by
      match a with
      | ⟨0, _⟩ => rfl
      | ⟨1, _⟩ => rfl
    have er : idx_main_v35 (ridx_main_v36 (ix2 t o) r) = ix2 o r := funext fun a => by
      match a with
      | ⟨0, _⟩ => rfl
      | ⟨1, _⟩ => rfl
    rw [el, er, lowRank_eq]

end Cert.ReferenceIdeal.Layer

end
-- ==== Proof.lean ====
/-
  An int4 group-quantised linear layer with a rank-16 update: the kernel against its jnp reference, over the
  extended reals.

  Both programs compute, at token `t` and output column `o`,

    ∑ₖ x[t, k] · ((q(k, o) − z(⌊k/128⌋, o)) · s[⌊k/128⌋, o])  +  2 · ∑ᵣ (∑ₖ x[t, k] · A[r, k]) · B[o, r]

  with `q` and `z` the 4-bit nibbles of the packed weight and zero-point words (Proof/DequantLinear.lean). The reference
  does so on full unpacked arrays (Proof/RefLayer.lean). The kernel pads the packed columns to a multiple of 128, lays
  zero points, scales and the rows of `B` out plane-major, and walks 11 column tiles × 2 halves of the input rows,
  accumulating the two halves' products and adding the low-rank term at the second (Proof/HostIn.lean, Blocks.lean,
  CaseValues.lean, OutPayload.lean, Result.lean, KernelLayer.lean); the two halves join by splitting the sum over the
  4096 input rows (Proof/TileShare.lean). Only associativity and commutativity of `+` are used, so the precondition
  (finite inputs) is never opened. No operation of the kernel is rewritten on the way to its idealization: the idealized
  kernel is the kernel's own text read over the extended reals, and the conjunct relating the two is trivial.
-/
import proofs.«427479_j4337916969000_3_alg».proof.Defs
import proofs.«427479_j4337916969000_3_alg».proof.Proof.Gen.Kernel
import proofs.«427479_j4337916969000_3_alg».proof.Proof.Gen.Kernel.Skeleton
import proofs.«427479_j4337916969000_3_alg».proof.Proof.Gen.Kernel.Launch
import proofs.«427479_j4337916969000_3_alg».proof.Proof.Gen.Kernel.Points
import proofs.«427479_j4337916969000_3_alg».proof.Proof.Gen.Kernel.Frame
import proofs.«427479_j4337916969000_3_alg».proof.Proof.Gen.KernelIdeal
import proofs.«427479_j4337916969000_3_alg».proof.Proof.Gen.KernelIdeal.Skeleton
import proofs.«427479_j4337916969000_3_alg».proof.Proof.Gen.KernelIdeal.Launch
import proofs.«427479_j4337916969000_3_alg».proof.Proof.Gen.KernelIdeal.Points
import proofs.«427479_j4337916969000_3_alg».proof.Proof.Gen.KernelIdeal.Frame
import proofs.«427479_j4337916969000_3_alg».proof.Proof.Gen.ReferenceIdeal
import proofs.«427479_j4337916969000_3_alg».proof.Proof.Gen.ReferenceIdeal.Run
import proofs.«427479_j4337916969000_3_alg».proof.Proof.Gen.ReferenceIdeal.Read
import proofs.«427479_j4337916969000_3_alg».proof.Proof.Gen.Pre_finite_inputs
import proofs.«427479_j4337916969000_3_alg».proof.Proof.KernelLayer
import proofs.«427479_j4337916969000_3_alg».proof.Proof.RefLayer
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing to relate. -/
theorem preserves : Cert.preserves_Kernel_KernelIdeal := trivial

/-- At the ideal values both programs end at the layer of arguments that agree. -/
theorem algebraic : Cert.algebraic_KernelIdeal_ReferenceIdeal := by
  intro m ρ m' ρ' _ hagree
  -- the common result: the layer of the kernel's six arguments
  refine ⟨fun c => Cert.Dequant.layer (Cert.KernelIdeal.Layer.xArg m c) (Cert.KernelIdeal.Layer.qwArg m c)
    (Cert.KernelIdeal.Layer.qzArg m c) (Cert.KernelIdeal.Layer.scArg m c) (Cert.KernelIdeal.Layer.laArg m c)
    (Cert.KernelIdeal.Layer.lbArg m c), Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  -- the reference's result term is its last stage, which is the layer of the reference's arguments; they agree
  refine (Cert.ReferenceIdeal.Read.val_main_v39_eq _ _ _ _ _ _).trans
    ((Cert.ReferenceIdeal.Layer.ref_eq _ _ _ _ _ _).trans ?_)
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
